-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048 : Shape := ⟨2, ![4, 2048]⟩
abbrev S32000x2048 : Shape := ⟨2, ![32000, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v8 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v8 main_v17
  main_v18

def fn {F : FTy → Type} [FloatOps F] (main_arg0 : FVec F S4x2048x2048 .f32) (main_arg1 : IVec S4x2048 32) (main_arg2 : FVec F S32000x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S4x2048 32 := broadcastInDim S4x2048 ![] bcast_S_S4x2048 main_c_2
  let main_v10 : IVec S4x2048 1 := cmpi .eq main_arg1 main_v9
  let main_c_3 : IVec S_ 32 := constantI S_ 32 0#32
  let main_v11 : IVec S4x2048 32 := broadcastInDim S4x2048 ![] bcast_S_S4x2048 main_c_3
  let main_v12 : IVec S4x2048 1 := cmpi .sge main_arg1 main_v11
  let main_c_4 : IVec S_ 32 := constantI S_ 32 32000#32
  let main_v13 : IVec S4x2048 32 := broadcastInDim S4x2048 ![] bcast_S_S4x2048 main_c_4
  let main_v14 : IVec S4x2048 1 := cmpi .slt main_arg1 main_v13
  let main_v15 : IVec S4x2048 1 := andi main_v12 main_v14
  let main_v16 : IVec S4x2048 1 := ori main_v10 main_v15
  fn_part1 (F := F) main_v8 main_v16
-- ==== Kernel.lean ====
abbrev S4x2048x2048 : Shape := ⟨3, ![4, 2048, 2048]⟩
abbrev S4x2048 : Shape := ⟨2, ![4, 2048]⟩
abbrev S32000x2048 : Shape := ⟨2, ![32000, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S2048x2048 : Shape := ⟨2, ![2048, 2048]⟩
abbrev S1280x2048 : Shape := ⟨2, ![1280, 2048]⟩
abbrev S2048x1 : Shape := ⟨2, ![2048, 1]⟩
abbrev S2048x256 : Shape := ⟨2, ![2048, 256]⟩
abbrev S256x2048 : Shape := ⟨2, ![256, 2048]⟩
abbrev S2048 : Shape := ⟨1, ![2048]⟩

abbrev nBuf : Space → Nat
  | .hbm => 26
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S32000x2048, .f32⟩
  | .hbm, ⟨3, _⟩ => ⟨S8192x2048, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x2048, .bf16⟩
  | .hbm, ⟨9, _⟩ => ⟨S32000x2048, .bf16⟩
  | .hbm, ⟨10, _⟩ => ⟨S8192x1, .i32⟩
  | .hbm, ⟨11, _⟩ => ⟨S8192x1, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S1280x2048, .bf16⟩
  | .local _ .vmem, ⟨3, _⟩ => ⟨S1280x2048, .bf16⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v207 : BitVec 1 := Scalar.cmpi .eq arg1 c24_i32
  let v208 : BitVec 32 := Scalar.extui v207
  let c0_i32_110 : BitVec 32 := 0#32
  let v209 : BitVec 1 := Scalar.cmpi .ne v208 c0_i32_110
  v209

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x2048x2048_S8192x2048 : S4x2048x2048.ShapeCasts S8192x2048
  shapeCasts_S4x2048_S8192 : S4x2048.ShapeCasts S8192
  bcast_S_S8192 : S_.BroadcastsInDim S8192 (![] : Fin 0 → Fin S8192.rank)
  bitsLt_bf16_f32 : FTy.bits .bf16 < FTy.bits .f32
  shapeCasts_S8192_S8192x1 : S8192.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S2048x256_d1_w32 : S2048x256.Iotas .tc 32 [1]
  inb_S1280x2048_S256x2048_0_0 : ∀ a, (![0, 0] : Fin 2 → Nat) a + S256x2048.size a ≤ S1280x2048.size a
  h_S256x2048 : 0 < S256x2048.numel
  shapeCasts_S256x2048_S256x2048 : S256x2048.ShapeCasts S256x2048
  broadcasts_S2048x1_S2048x256 : S2048x1.Broadcasts S2048x256
  reduces_S2048x256_S2048 : S2048x256.Reduces [1] S2048
  shapeCasts_S2048_S2048x1 : S2048.ShapeCasts S2048x1
  inb_S1280x2048_S256x2048_256_0 : ∀ a, (![256, 0] : Fin 2 → Nat) a + S256x2048.size a ≤ S1280x2048.size a
  inb_S1280x2048_S256x2048_512_0 : ∀ a, (![512, 0] : Fin 2 → Nat) a + S256x2048.size a ≤ S1280x2048.size a
  inb_S1280x2048_S256x2048_768_0 : ∀ a, (![768, 0] : Fin 2 → Nat) a + S256x2048.size a ≤ S1280x2048.size a
  inb_S1280x2048_S256x2048_1024_0 : ∀ a, (![1024, 0] : Fin 2 → Nat) a + S256x2048.size a ≤ S1280x2048.size a
  reducesTo_S8192_S_d0 : S8192.ReducesTo [0] S_
  h_S_ : 0 < S_.numel
  shapeCasts_S8192x1_S8192 : S8192x1.ShapeCasts S8192
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v4) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S4x2048 : Shape := ⟨2, ![4, 2048]⟩
abbrev S32000x2048 : Shape := ⟨2, ![32000, 2048]⟩
abbrev S8192x2048 : Shape := ⟨2, ![8192, 2048]⟩
abbrev S8192 : Shape := ⟨1, ![8192]⟩
abbrev S_ : Shape := ⟨0, ![]⟩
abbrev S8192x32000 : Shape := ⟨2, ![8192, 32000]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S32000x2048, .f32⟩
  | .hbm, ⟨3, _⟩ => ⟨S8192x2048, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x32000, .f32⟩
  | .hbm, ⟨20, _⟩ => ⟨S8192x32000, .f32⟩
  | .hbm, ⟨21, _⟩ => ⟨S8192x32000, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x32000, .f32⟩
  | .hbm, ⟨27, _⟩ => ⟨S8192x32000, .f32⟩
  | .hbm, ⟨28, _⟩ => ⟨S8192x1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S8192x1x1, .i32⟩
  | .hbm, ⟨37, _⟩ => ⟨S1, .i32⟩
  | .hbm, ⟨38, _⟩ => ⟨S_, .i32⟩
  | .hbm, ⟨39, _⟩ => ⟨S8192x1x1, .i32⟩
  | .hbm, ⟨40, _⟩ => ⟨S8192x1x1, .i1⟩
  | .hbm, ⟨41, _⟩ => ⟨S1x1x1, .i32⟩
  | .hbm, ⟨42, _⟩ => ⟨S8192x1x1, .i32⟩
  | .hbm, ⟨43, _⟩ => ⟨S8192x1x1, .i1⟩
  | .hbm, ⟨44, _⟩ => ⟨S8192x1x1, .i1⟩
  | .hbm, ⟨45, _⟩ => ⟨S_, .i1⟩
  | .hbm, ⟨46, _⟩ => ⟨S8192x1, .i1⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192, .f32⟩
  | .hbm, ⟨52, _⟩ => ⟨S8192, .f32⟩
  | .hbm, ⟨53, _⟩ => ⟨S8192, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_1 : Ref sig .tc := ⟨.hbm, 54, rfl⟩
abbrev main_v12 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v13 : Ref sig .tc := ⟨.hbm, 59, rfl⟩
abbrev main_cst_2 : Ref sig .tc := ⟨.hbm, 60, rfl⟩
abbrev main_v14 : Ref sig .tc := ⟨.hbm, 61, rfl⟩
abbrev main_c_3 : Ref sig .tc := ⟨.hbm, 62, rfl⟩
abbrev main_v15 : Ref sig .tc := ⟨.hbm, 63, rfl⟩
abbrev main_c_4 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_5 : Ref sig .tc := ⟨.hbm, 68, rfl⟩
abbrev main_call4_v0 : Ref sig .tc := ⟨.hbm, 69, rfl⟩
abbrev main_v19 : Ref sig .tc := ⟨.hbm, 70, rfl⟩

abbrev nD : Nat := 1
abbrev τ : Topo := Topo.v7x

variable {F : FTy → Type} [FloatOps F]

class Facts₀ : Prop where
  shapeCasts_S4x2048x2048_S8192x2048 : S4x2048x2048.ShapeCasts S8192x2048
  shapeCasts_S4x2048_S8192 : S4x2048.ShapeCasts S8192
  bcast_S_S8192 : S_.BroadcastsInDim S8192 (![] : Fin 0 → Fin S8192.rank)
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  natLt_1_32 : 1 < 32
  reducesTo_S8192_S_d0 : S8192.ReducesTo [0] S_
  dot_S8192x2048_S32000x2048_S8192x32000_1_1_0_0_n_n_wf : DotDims.WF S8192x2048 S32000x2048 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x2048_S32000x2048_S8192x32000_1_1_0_0_n_n : DotDims S8192x2048 S32000x2048 S8192x32000 where
  lhsContracting := [1]
  rhsContracting := [1]
  lhsNonContracting := [0]
  rhsNonContracting := [0]
  lhsBatch := []
  rhsBatch := []
  wf := dot_S8192x2048_S32000x2048_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.RowMath.lean ====
/- The scalar mathematics of one row of the fused cross-entropy.

   A row of logits `z 0, z 1, …` (real numbers) is swept in tiles.  The sweep keeps three numbers: the running maximum
   `runMax z n` of the first `n` logits (the bottom element before any logit has been seen), the running sum
   `runSum z n = ∑_{v<n} exp (z v - runMax z n)`, and the running pick `runPick z tgt n`, the logit at the target
   column if that column has been seen.  One tile of width `w` updates them by
       M' = max M (max of the tile),   L' = exp (M - M') · L + ∑_{tile} exp (z - M'),   T' = T + ∑_{tile} [col = tgt] z,
   and these are exactly the values at `n + w` (`runMax_step`, `runSum_step`, `runPick_step`).  After the whole row the
   negative log-likelihood `(M + log L) - T` is the one the one-pass log-softmax gives, `-((T - M) - log L)`
   (`nll_eq`). -/
import Idealize.ShloMosaic.PureOps.Ideal
import Mathlib.Analysis.SpecialFunctions.Log.Basic
import Mathlib.Data.EReal.Basic
import Mathlib.Algebra.BigOperators.Intervals

noncomputable section

namespace Cert.RowMath

open Idealize.ShloMosaic

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (z : ℕ → ℝ)

/-- The maximum of the first `n` logits, in the extended reals: the bottom element for `n = 0`. -/
def runMax (n : ℕ) : EReal := (Finset.range n).sup fun v => (z v : EReal)

/-- The sum of `exp (z v - runMax z n)` over the first `n` logits. -/
def runSum (n : ℕ) : EReal := ∑ v ∈ Finset.range n, Ideal.exp ((z v : EReal) - runMax z n)

/-- The logit at column `tgt` if `tgt < n`, else `0`: a sum with at most one nonzero term. -/
def runPick (tgt n : ℕ) : EReal := ∑ v ∈ Finset.range n, if v = tgt then (z v : EReal) else 0

theorem runMax_zero : runMax z 0 = ⊥ := by simp [runMax]

theorem runSum_zero : runSum z 0 = 0 := by simp [runSum]

theorem runPick_zero (tgt : ℕ) : runPick z tgt 0 = 0 := by simp [runPick]

/-- Once a logit has been seen the running maximum is a real number, attained and dominating. -/
theorem runMax_real {n : ℕ} (hn : 0 < n) : ∃ mr : ℝ, runMax z n = (mr : EReal) := by
  have h1 : runMax z n ≠ ⊥ := by
    intro h
    have : (z 0 : EReal) ≤ runMax z n := Finset.le_sup (f := fun v => (z v : EReal)) (Finset.mem_range.2 hn)
    rw [h] at this
    exact absurd (le_bot_iff.1 this) (EReal.coe_ne_bot _)
  have h2 : runMax z n ≠ ⊤ := by
    have : runMax z n < ⊤ := by
      unfold runMax
      rw [Finset.sup_lt_iff (by exact bot_lt_top)]
      intro b _
      exact EReal.coe_lt_top _
    exact ne_of_lt this
  exact ⟨(runMax z n).toReal, (EReal.coe_toReal h2 h1).symm⟩

theorem le_runMax {n v : ℕ} (hv : v < n) : (z v : EReal) ≤ runMax z n :=
  Finset.le_sup (f := fun v => (z v : EReal)) (Finset.mem_range.2 hv)

/-- The fold of `max` from the bottom over a tile is the tile's supremum. -/
theorem fold_max_eq_sup {w : ℕ} (f : Fin w → EReal) :
    (Finset.univ : Finset (Fin w)).fold max ⊥ f = Finset.univ.sup f := rfl

/-- The maximum step: the old running maximum against the tile's maximum. -/
theorem runMax_step (n w : ℕ) :
    max (runMax z n) ((Finset.univ : Finset (Fin w)).fold max ⊥ fun j => (z (n + j.val) : EReal)) = runMax z (n + w) := by
  rw [fold_max_eq_sup]
  apply le_antisymm
  · apply max_le
    · unfold runMax
      apply Finset.sup_le
      intro v hv
      exact le_runMax z (by have := Finset.mem_range.1 hv; omega)
    · apply Finset.sup_le
      intro j _
      exact le_runMax z (by have := j.isLt; omega)
  · unfold runMax
    apply Finset.sup_le
    intro v hv
    have hv' := Finset.mem_range.1 hv
    by_cases h : v < n
    · exact le_trans (le_runMax z h) (le_max_left _ _)
    · refine le_trans ?_ (le_max_right _ _)
      have hj : v - n < w := by omega
      have : (z v : EReal) = (fun j : Fin w => (z (n + j.val) : EReal)) ⟨v - n, hj⟩ := by
        show (z v : EReal) = (z (n + (v - n)) : EReal)
        congr 2; omega
      rw [this]
      exact Finset.le_sup (f := fun j : Fin w => (z (n + j.val) : EReal)) (Finset.mem_univ _)

/-- The sum step: the old sum rescaled to the new maximum, plus the tile's terms. -/
theorem runSum_step (n w : ℕ) (hw : 0 < w) :
    Ideal.exp (runMax z n - runMax z (n + w)) * runSum z n
        + ∑ j : Fin w, Ideal.exp ((z (n + j.val) : EReal) - runMax z (n + w))
      = runSum z (n + w) := by
  obtain ⟨m', hm'⟩ := runMax_real z (n := n + w) (by omega)
  have key : Ideal.exp (runMax z n - runMax z (n + w)) * runSum z n
      = ∑ v ∈ Finset.range n, Ideal.exp ((z v : EReal) - runMax z (n + w)) := by
    rcases Nat.eq_zero_or_pos n with h0 | hpos
    · subst h0; simp [runSum]
    · obtain ⟨mn, hmn⟩ := runMax_real z hpos
      unfold runSum
      rw [hmn, hm']
      have e1 : ∀ v, Ideal.exp ((z v : EReal) - (mn : EReal)) = ((Real.exp (z v - mn) : ℝ) : EReal) := fun v => by
        rw [← EReal.coe_sub]; rfl
      have e2 : ∀ v, Ideal.exp ((z v : EReal) - (m' : EReal)) = ((Real.exp (z v - m') : ℝ) : EReal) := fun v => by
        rw [← EReal.coe_sub]; rfl
      have e3 : Ideal.exp ((mn : EReal) - (m' : EReal)) = ((Real.exp (mn - m') : ℝ) : EReal) := by
        rw [← EReal.coe_sub]; rfl
      simp only [e1, e2, e3]
      rw [← coe_sum, ← coe_sum, ← EReal.coe_mul, Finset.mul_sum]
      congr 1
      apply Finset.sum_congr rfl
      intro v _
      rw [← Real.exp_add]
      congr 1; ring
  rw [key]
  unfold runSum
  rw [Finset.sum_range_add, Finset.sum_range (fun x => Ideal.exp ((z (n + x) : EReal) - runMax z (n + w)))]

/-- The pick step: the tile adds the target logit if the target column lies in it. -/
theorem runPick_step (tgt n w : ℕ) :
    runPick z tgt n + ∑ j : Fin w, (if n + j.val = tgt then (z (n + j.val) : EReal) else 0) = runPick z tgt (n + w) := by
  unfold runPick
  rw [Finset.sum_range_add, Finset.sum_range (fun x => if n + x = tgt then (z (n + x) : EReal) else 0)]

/-- After the target column has been seen the pick is the target logit. -/
theorem runPick_total {tgt n : ℕ} (h : tgt < n) : runPick z tgt n = (z tgt : EReal) := by
  unfold runPick
  rw [Finset.sum_eq_single tgt]
  · simp
  · intro b _ hb; simp [hb]
  · intro hn; exact absurd (Finset.mem_range.2 h) hn

/-- The running sum is a positive real once a logit has been seen. -/
theorem runSum_real {n : ℕ} (hn : 0 < n) : ∃ s : ℝ, 0 < s ∧ runSum z n = (s : EReal) := by
  obtain ⟨mn, hmn⟩ := runMax_real z hn
  refine ⟨∑ v ∈ Finset.range n, Real.exp (z v - mn), ?_, ?_⟩
  · apply Finset.sum_pos
    · intro i _; exact Real.exp_pos _
    · exact ⟨0, Finset.mem_range.2 hn⟩
  · unfold runSum
    rw [hmn, coe_sum]
    apply Finset.sum_congr rfl
    intro v _
    rw [← EReal.coe_sub]; rfl

/-- The streaming form of the negative log-likelihood is the one-pass form. -/
theorem nll_eq {n : ℕ} (hn : 0 < n) (t : ℝ) :
    (runMax z n + Ideal.log (runSum z n)) - (t : EReal)
      = -(((t : EReal) - runMax z n) - Ideal.log (runSum z n)) := by
  obtain ⟨mn, hmn⟩ := runMax_real z hn
  obtain ⟨s, hs, hsum⟩ := runSum_real z hn
  rw [hmn, hsum]
  have : Ideal.log (s : EReal) = ((Real.log s : ℝ) : EReal) := by
    show (if s ≤ 0 then (⊥ : EReal) else (Real.log s : EReal)) = _
    rw [if_neg (not_le.2 hs)]
  rw [this, ← EReal.coe_add, ← EReal.coe_sub, ← EReal.coe_sub, ← EReal.coe_sub, ← EReal.coe_neg]
  congr 1; ring

end Cert.RowMath

end
-- ==== Proof.Spec.lean ====
/- The value both programs compute, as one function of the three argument arrays over the extended reals.

   Token row `r` (of 8192 = 4 · 2048) has the hidden vector `hid r` and the target word `tgtWord r`; its logit at vocabulary
   column `v` is the contraction of the hidden vector with row `v` of the weight.  A row is valid when its target is not
   the ignore value −100; a valid row's loss is the negative log-likelihood of its target column, written with the row's
   maximum, sum of shifted exponentials and target logit (`RowMath`); the result is the mean of the valid rows' losses,
   and 0 when no row is valid. -/
import proofs.«419131_j19765439496671_3_alg».proof.Proof.RowMath
import Idealize.ShloMosaic.Lib.ValueIdx

noncomputable section

namespace Cert.Spec

open Idealize.ShloMosaic Idealize.ShloMosaic.ValueIdx Cert.RowMath

/-- The shapes of the three arguments. -/
abbrev SH : Shape := ⟨3, ![4, 2048, 2048]⟩
abbrev ST : Shape := ⟨2, ![4, 2048]⟩
abbrev SW : Shape := ⟨2, ![32000, 2048]⟩

/-- The ignore value −100 as a 32-bit word. -/
abbrev ignoreWord : BitVec 32 := 4294967196#32

variable (H : SH.Idx → EReal) (T : ST.Idx → BitVec 32) (W : SW.Idx → EReal)

/-- Token row `r` is row `r % 2048` of batch `r / 2048`. -/
def hid (r : Fin 8192) (d : Fin 2048) : EReal :=
  H (ix3 (⟨r.val / 2048, by have := r.isLt; omega⟩ : Fin 4) (⟨r.val % 2048, Nat.mod_lt _ (by norm_num)⟩ : Fin 2048) d)

/-- The target word of token row `r`. -/
def tgtWord (r : Fin 8192) : BitVec 32 :=
  T (ix2 (⟨r.val / 2048, by have := r.isLt; omega⟩ : Fin 4) (⟨r.val % 2048, Nat.mod_lt _ (by norm_num)⟩ : Fin 2048))

/-- The target column used for the pick: column 0 on an ignored row. -/
def tgtN (r : Fin 8192) : ℕ := if tgtWord T r = ignoreWord then 0 else (tgtWord T r).toNat

/-- The logit of token row `r` at vocabulary column `v`, in the extended reals. -/
def logitE (r : Fin 8192) (v : Fin 32000) : EReal := ∑ d : Fin 2048, hid H r d * W (ix2 v d)

/-- The row's logits as real numbers, indexed by the column number (0 beyond the vocabulary). -/
def z (r : Fin 8192) : ℕ → ℝ := fun v => if h : v < 32000 then (logitE H W r ⟨v, h⟩).toReal else 0

/-- The negative log-likelihood of row `r`'s target column. -/
def nll (r : Fin 8192) : EReal :=
  (runMax (z H W r) 32000 + Ideal.log (runSum (z H W r) 32000)) - runPick (z H W r) (tgtN T r) 32000

/-- A row's contribution: its negative log-likelihood if valid, else 0. -/
def rowLoss (r : Fin 8192) : EReal := if tgtWord T r = ignoreWord then 0 else nll H T W r

/-- The number of valid rows. -/
def count : ℕ := (Finset.univ.filter fun r : Fin 8192 => tgtWord T r ≠ ignoreWord).card

/-- The mean loss over the valid rows; 0 when there is none. -/
def loss : EReal :=
  if 0 < count T then Ideal.div (∑ r : Fin 8192, rowLoss H T W r) (((max (count T) 1 : ℕ) : ℝ) : EReal) else 0

/-- Every entry of a float argument is a real number. -/
def Finite {S : Shape} (X : S.Idx → EReal) : Prop := ∀ j, ∃ x : ℝ, X j = (x : EReal)

/-- Every target is the ignore value or a vocabulary column. -/
def InRange : Prop := ∀ j, T j = ignoreWord ∨ (T j).toNat < 32000

end Cert.Spec

end
-- ==== Proof.PreDecode.lean ====
/- What the precondition says of the argument arrays: every entry of the two float arguments is a real number
   (its absolute value is below +∞), and every target is the ignore value −100 or a vocabulary column 0 … 31999. -/
import proofs.«419131_j19765439496671_3_alg».proof.Proof.Gen.Pre_finite_inputs
import proofs.«419131_j19765439496671_3_alg».proof.Proof.Spec
import Idealize.ShloMosaic.Lib.ReduceAll
import Idealize.ShloMosaic.Lib.StableHlo.Predicate
import Idealize.ShloMosaic.PureOps.Ideal.Laws

noncomputable section

namespace Cert.PreDecode

open Idealize.ShloMosaic Idealize.ShloMosaic.ValueIdx Cert.Pre_finite_inputs

/-- The scalar shape has one index. -/
instance : Subsingleton Cert.Pre_finite_inputs.S_.Idx := ⟨fun a b => funext fun d => d.elim0⟩

/-- An extended real whose absolute value is below +∞ is a real number. -/
theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  -- the pattern 0x7F800000 denotes +∞
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  simp only [StableHlo.Predicate.ofBool_eq_one_iff, decide_eq_true_eq, max_lt_iff] at h
  -- x < ⊤ excludes ⊤, and −x < ⊤ excludes ⊥
  induction x using EReal.rec with
  | bot => simp at h
  | top => simp at h
  | coe r => exact ⟨r, rfl⟩

/-- A word that is −100, or at least 0 and below 32000 signed, is −100 or below 32000 unsigned. -/
theorem range_of_word (w : BitVec 32)
    (h : IntOp.ori (IntOp.cmpi .eq w 4294967196#32) (IntOp.andi (IntOp.cmpi .sge w 0#32) (IntOp.cmpi .slt w 32000#32)) = 1#1) :
    w = 4294967196#32 ∨ w.toNat < 32000 := by
  rw [IntOp.ori_eq_one, IntOp.andi_eq_one, StableHlo.Predicate.cmpi_eq_iff] at h
  rcases h with h | ⟨h0, h1⟩
  · exact Or.inl h
  · right
    unfold IntOp.cmpi at h0 h1
    rw [StableHlo.Predicate.ofBool_eq_one_iff] at h0 h1
    simp only [BitVec.slt, BitVec.sle, decide_eq_true_eq] at h0 h1
    have h32 := w.isLt
    -- a signed value in [0, 32000) has its top bit clear, so it is the unsigned value
    unfold BitVec.toInt at h0 h1
    split at h1 <;> simp at h0 h1 <;> omega

/-- The precondition, all ones, gives finiteness of both float arguments and the range of every target. -/
theorem decode (x0 : FVec Ideal Cert.Pre_finite_inputs.S4x2048x2048 .f32) (x1 : IVec Cert.Pre_finite_inputs.S4x2048 32)
    (x2 : FVec Ideal Cert.Pre_finite_inputs.S32000x2048 .f32)
    (h : Cert.Pre_finite_inputs.fn (F := Ideal) x0 x1 x2 = fun _ => 1#1) :
    Cert.Spec.Finite (S := Cert.Spec.SH) x0 ∧ Cert.Spec.InRange x1 ∧ Cert.Spec.Finite (S := Cert.Spec.SW) x2 := by
  -- the scalar result at its one index: a conjunction of three reductions by `and`
  have e := congrFun h ix0
  unfold Cert.Pre_finite_inputs.fn Cert.Pre_finite_inputs.fn_part1 at e
  dsimp only at e
  change IntOp.andi (IntOp.andi _ _) _ = 1#1 at e
  rw [IntOp.andi_eq_one, IntOp.andi_eq_one] at e
  obtain ⟨⟨e0, e2⟩, e1⟩ := e
  -- each reduction that is 1 had a 1 at every element
  refine ⟨fun j => ?_, fun j => ?_, fun j => ?_⟩
  · exact real_of_abs_lt (x0 j) (Host.reduce_andi_all _ _ _ _ _ e0 j)
  · exact range_of_word (x1 j) (Host.reduce_andi_all _ _ _ _ _ e1 j)
  · exact real_of_abs_lt (x2 j) (Host.reduce_andi_all _ _ _ _ _ e2 j)

end Cert.PreDecode

end
-- ==== Proof.KStep.lean ====
/- One sub-tile of the streaming log-sum-exp as vector functions, at any float family, and a grid point's five
   sub-tiles composed.

   A sub-tile takes 256 rows of the weight block, forms the 2048×256 logits against the hidden block, and updates three
   2048×1 columns: the running maximum, the running sum of exponentials rescaled to the new maximum, and the running
   target logit (the logits masked by "column = target", summed along the lanes). -/
import proofs.«419131_j19765439496671_3_alg».proof.Proof.Gen.KernelIdeal
import Idealize.ShloMosaic.Lib.Pipeline.FrameBody

noncomputable section

namespace Cert.KernelIdeal.KStep

open Cert.KernelIdeal Cert.KernelIdeal.Facts₀ Cert.KernelIdeal.Facts
open Idealize.ShloMosaic Idealize.ShloMosaic.TcCoe Idealize.SL.Sem

variable {F : FTy → Type} [FloatOps F]

/-- The three carried columns. -/
abbrev St (F : FTy → Type) [FloatOps F] := Vec F S2048x1 .f32 × Vec F S2048x1 .f32 × Vec F S2048x1 .f32

/-- The logits of one sub-tile: the hidden block against 256 rows of the weight block, contracted over the model axis. -/
def logits (h : Vec F S2048x2048 .bf16) (w : Vec F S256x2048 .bf16) : FVec F S2048x256 .f32 :=
  matmul dot_S2048x2048_S256x2048_S2048x256_1_1_0_0_n_n none (shapeCast S2048x2048 h shapeCasts_S2048x2048_S2048x2048)
    (shapeCast S256x2048 w shapeCasts_S256x2048_S256x2048) (constant S2048x256 .f32 0x00000000#32)

/-- The targets with the ignore value replaced by column 0. -/
def safeTgt (tg : Vec F S2048x1 .i32) : IVec S2048x1 32 :=
  select (cmpi .ne (shapeCast S2048x1 tg shapeCasts_S2048x1_S2048x1) (broadcast S2048x1 4294967196#32))
    (shapeCast S2048x1 tg shapeCasts_S2048x1_S2048x1) (broadcast S2048x1 0#32)

/-- The rows whose target is not the ignore value. -/
def validMask (tg : Vec F S2048x1 .i32) : IVec S2048x1 1 :=
  cmpi .ne (shapeCast S2048x1 tg shapeCasts_S2048x1_S2048x1) (broadcast S2048x1 4294967196#32)

/-- The new running maximum (before it is stored). -/
def newMax (lg : FVec F S2048x256 .f32) (mOld : Vec F S2048x1 .f32) : FVec F S2048x1 .f32 :=
  maximumf mOld (shapeCast S2048x1 (multiReduction .maximumf [1] S2048 lg 0xFF800000#32 reduces_S2048x256_S2048 (.inl rfl) rfl) shapeCasts_S2048_S2048x1)

/-- The new running sum: the old one rescaled, plus the sub-tile's exponentials. -/
def newSum (lg : FVec F S2048x256 .f32) (mOld lOld : Vec F S2048x1 .f32) : FVec F S2048x1 .f32 :=
  addf (mulf (exp (subf mOld (newMax lg mOld))) lOld)
    (shapeCast S2048x1 (multiReduction .add [1] S2048 (exp (subf lg (broadcastTo S2048x256 (newMax lg mOld) broadcasts_S2048x1_S2048x256))) 0x00000000#32 reduces_S2048x256_S2048 (.inl rfl) rfl) shapeCasts_S2048_S2048x1)

/-- The new running target logit: the old one plus the logits at "column = target", summed along the lanes. -/
def newPick (col0 : BitVec 32) (tg : Vec F S2048x1 .i32) (lg : FVec F S2048x256 .f32) (tOld : Vec F S2048x1 .f32) : FVec F S2048x1 .f32 :=
  addf tOld
    (shapeCast S2048x1 (multiReduction .add [1] S2048
      (select (cmpi .eq (addi (broadcast S2048x256 col0) (iota .tc S2048x256 32 [1] iota_S2048x256_d1_w32)) (broadcastTo S2048x256 (safeTgt tg) broadcasts_S2048x1_S2048x256))
        lg (broadcast S2048x256 (Scalar.ofBits .f32 0x00000000#32)))
      0x00000000#32 reduces_S2048x256_S2048 (.inl rfl) rfl) shapeCasts_S2048_S2048x1)

/-- One sub-tile's update of the three columns, as stored. -/
def step (col0 : BitVec 32) (tg : Vec F S2048x1 .i32) (lg : FVec F S2048x256 .f32) (s : St F) : St F :=
  (shapeCast S2048x1 (newMax lg s.1) shapeCasts_S2048x1_S2048x1,
   shapeCast S2048x1 (newSum lg s.1 s.2.1) shapeCasts_S2048x1_S2048x1,
   shapeCast S2048x1 (newPick col0 tg lg s.2.2) shapeCasts_S2048x1_S2048x1)

/-- The first column of sub-tile `j` of the vocabulary block `kv`, as the kernel's 32-bit word. -/
def colWord (kv : BitVec 32) (off : BitVec 32) : BitVec 32 := Scalar.addi (Scalar.muli kv 1280#32) off

/-- The weight block's rows `off … off + 255`. -/
abbrev wsub0 (x1 : Vec F S1280x2048 .bf16) : Vec F S256x2048 .bf16 := View.ld x1 (Rect.unit (s := S1280x2048) ![0, 0] S256x2048.size inb_S1280x2048_S256x2048_0_0)
abbrev wsub1 (x1 : Vec F S1280x2048 .bf16) : Vec F S256x2048 .bf16 := View.ld x1 (Rect.unit (s := S1280x2048) ![256, 0] S256x2048.size inb_S1280x2048_S256x2048_256_0)
abbrev wsub2 (x1 : Vec F S1280x2048 .bf16) : Vec F S256x2048 .bf16 := View.ld x1 (Rect.unit (s := S1280x2048) ![512, 0] S256x2048.size inb_S1280x2048_S256x2048_512_0)
abbrev wsub3 (x1 : Vec F S1280x2048 .bf16) : Vec F S256x2048 .bf16 := View.ld x1 (Rect.unit (s := S1280x2048) ![768, 0] S256x2048.size inb_S1280x2048_S256x2048_768_0)
abbrev wsub4 (x1 : Vec F S1280x2048 .bf16) : Vec F S256x2048 .bf16 := View.ld x1 (Rect.unit (s := S1280x2048) ![1024, 0] S256x2048.size inb_S1280x2048_S256x2048_1024_0)

/-- A grid point's five sub-tiles, in order, on the three columns. -/
def point (kv : BitVec 32) (x0 : Vec F S2048x2048 .bf16) (x1 : Vec F S1280x2048 .bf16) (x2 : Vec F S2048x1 .i32) (s : St F) : St F :=
  step (colWord kv 1024#32) x2 (logits x0 (wsub4 x1))
   (step (colWord kv 768#32) x2 (logits x0 (wsub3 x1))
    (step (colWord kv 512#32) x2 (logits x0 (wsub2 x1))
     (step (colWord kv 256#32) x2 (logits x0 (wsub1 x1))
      (step (colWord kv 0#32) x2 (logits x0 (wsub0 x1)) s))))

/-- The columns as the first vocabulary block finds them: the maximum at the bottom, the sum and the pick at zero. -/
def init : St F :=
  (shapeCast S2048x1 (broadcast S2048x1 (Scalar.ofBits .f32 0xFF800000#32)) shapeCasts_S2048x1_S2048x1,
   shapeCast S2048x1 (broadcast S2048x1 (Scalar.ofBits .f32 0x00000000#32)) shapeCasts_S2048x1_S2048x1,
   shapeCast S2048x1 (broadcast S2048x1 (Scalar.ofBits .f32 0x00000000#32)) shapeCasts_S2048x1_S2048x1)

/-- What the last vocabulary block writes out: the negative log-likelihood on the valid rows, zero on the others. -/
def finish (x2 : Vec F S2048x1 .i32) (s : St F) : FVec F S2048x1 .f32 :=
  select (validMask x2) (subf (addf s.1 (log s.2.1)) s.2.2) (broadcast S2048x1 (Scalar.ofBits .f32 0x00000000#32))

end Cert.KernelIdeal.KStep

end
-- ==== Proof.LibReadNewest.lean ====
/-
  A load through the whole-shape rectangle of a buffer whose NEWEST store went through the whole-shape
  rectangle reads that store's payload, however many older stores lie under it: the newest piece covers
  every index, so the older pieces never show.

  (A scratch buffer rewritten whole once per unrolled step and read back whole after each rewrite is held
  by a run as the list of all its stores so far, newest first; this reads it.)
-/
import Idealize.ShloMosaic.Lib.Pipeline.Value

noncomputable section

namespace Idealize.ShloMosaic.ReadNewest

open Idealize.ShloMosaic

variable {Val : EltTy → Type} {S : Shape} {e : EltTy}

/-- The newest piece of a list of writes is the whole shape at zero offsets (however the zeros are spelt):
    a load through that rectangle reads the piece's payload, whatever the older pieces. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.ReadNewest

end
-- ==== Proof.Pieces.lean ====
/- What one grid point leaves in the three carried columns and in the output block, as the pure functions of
   `KStep`: the body's stores, read back, are the five sub-tile updates composed (each later load of a column reads the
   newest store to it), at any float family. -/
import proofs.«419131_j19765439496671_3_alg».proof.Proof.Gen.KernelIdeal.Frame
import proofs.«419131_j19765439496671_3_alg».proof.Proof.KStep
import proofs.«419131_j19765439496671_3_alg».proof.Proof.LibReadNewest

set_option maxRecDepth 16384

noncomputable section

namespace Cert.KernelIdeal.Pieces

open Cert.KernelIdeal Cert.KernelIdeal.Gen Cert.KernelIdeal.KStep
open Idealize.ShloMosaic Idealize.ShloMosaic.TcCoe Idealize.ShloMosaic.Tactic
open Idealize.SL Idealize.SL.Sem

variable {F : FTy → Type} [FloatOps F]

/-- The zero offsets of a whole-shape rectangle of rank two. -/
theorem hz : (![0, 0] : Fin 2 → Nat) = fun _ => 0 := funext fun a => by fin_cases a <;> rfl

/-- At the first vocabulary block of a token block the running maximum column ends at the five sub-tiles run from the initial columns. -/
theorem pieceA_0 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i) (x0 : Vec F S2048x2048 .bf16) (x1 : Vec F S1280x2048 .bf16) (x2 : Vec F S2048x1 .i32) :
    sout0_A_0 c i arg2 harg2 arg3 harg3 arg4 harg4 arg5 harg5 arg6 harg6 arg7 harg7 arg8 harg8 hc0 hc1 x0 x1 x2 = (point (BitVec.ofNat 32 (i 1).val) x0 x1 x2 init).1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the first vocabulary block of a token block the running sum column ends at the five sub-tiles run from the initial columns. -/
theorem pieceA_1 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i) (x0 : Vec F S2048x2048 .bf16) (x1 : Vec F S1280x2048 .bf16) (x2 : Vec F S2048x1 .i32) :
    sout0_A_1 c i arg2 harg2 arg3 harg3 arg4 harg4 arg5 harg5 arg6 harg6 arg7 harg7 arg8 harg8 hc0 hc1 x0 x1 x2 = (point (BitVec.ofNat 32 (i 1).val) x0 x1 x2 init).2.1 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the first vocabulary block of a token block the running target logit column ends at the five sub-tiles run from the initial columns. -/
theorem pieceA_2 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i) (x0 : Vec F S2048x2048 .bf16) (x1 : Vec F S1280x2048 .bf16) (x2 : Vec F S2048x1 .i32) :
    sout0_A_2 c i arg2 harg2 arg3 harg3 arg4 harg4 arg5 harg5 arg6 harg6 arg7 harg7 arg8 harg8 hc0 hc1 x0 x1 x2 = (point (BitVec.ofNat 32 (i 1).val) x0 x1 x2 init).2.2 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At a middle vocabulary block the running maximum column ends at the five sub-tiles run from what the block before left. -/
theorem pieceB_0 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i) (x0 : Vec F S2048x2048 .bf16) (x1 : Vec F S1280x2048 .bf16) (x2 : Vec F S2048x1 .i32) (xs0 xs1 xs2 : Vec F S2048x1 .f32) :
    sout0_B_0 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).1 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At a middle vocabulary block the running sum column ends at the five sub-tiles run from what the block before left. -/
theorem pieceB_1 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i) (x0 : Vec F S2048x2048 .bf16) (x1 : Vec F S1280x2048 .bf16) (x2 : Vec F S2048x1 .i32) (xs0 xs1 xs2 : Vec F S2048x1 .f32) :
    sout0_B_1 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).2.1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At a middle vocabulary block the running target logit column ends at the five sub-tiles run from what the block before left. -/
theorem pieceB_2 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i) (x0 : Vec F S2048x2048 .bf16) (x1 : Vec F S1280x2048 .bf16) (x2 : Vec F S2048x1 .i32) (xs0 xs1 xs2 : Vec F S2048x1 .f32) :
    sout0_B_2 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).2.2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the last vocabulary block the running maximum column ends at the five sub-tiles run from what the block before left. -/
theorem pieceC_0 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x2048 .bf16) (x1 : Vec F S1280x2048 .bf16) (x2 : Vec F S2048x1 .i32) (xs0 xs1 xs2 : Vec F S2048x1 .f32) :
    sout0_C_0 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).1 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the last vocabulary block the running sum column ends at the five sub-tiles run from what the block before left. -/
theorem pieceC_1 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x2048 .bf16) (x1 : Vec F S1280x2048 .bf16) (x2 : Vec F S2048x1 .i32) (xs0 xs1 xs2 : Vec F S2048x1 .f32) :
    sout0_C_1 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).2.1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the last vocabulary block the running target logit column ends at the five sub-tiles run from what the block before left. -/
theorem pieceC_2 (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x2048 .bf16) (x1 : Vec F S1280x2048 .bf16) (x2 : Vec F S2048x1 .i32) (xs0 xs1 xs2 : Vec F S2048x1 .f32) :
    sout0_C_2 c i arg2 harg2 arg3 harg3 arg4 harg4 arg5 harg5 arg6 harg6 arg7 harg7 arg8 harg8 hc0 hc1 x0 x1 x2 xs0 xs1 xs2 = (point (BitVec.ofNat 32 (i 1).val) x0 x1 x2 (xs0, xs1, xs2)).2.2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

/-- At the last vocabulary block the output block is the finishing formula of the columns after the five sub-tiles. -/
theorem pieceC_out (c : Dev nD) (i : grid0.Coords) (arg2 : Memref sig .tc .vmem S2048x2048 .bf16) (harg2 : arg2.IsWhole) (arg3 : Memref sig .tc .vmem S1280x2048 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x2048 .bf16) (x1 : Vec F S1280x2048 .bf16) (x2 : Vec F S2048x1 .i32) (xs0 xs1 xs2 : Vec F S2048x1 .f32) :
    out0_C_3 c i arg2 harg2 arg3 harg3 arg4 harg4 arg5 harg5 arg6 harg6 arg7 harg7 arg8 harg8 hc0 hc1 x0 x1 x2 xs0 xs1 xs2 = finish x2 (point (BitVec.ofNat 32 (i 1).val) x0 x1 x2 (xs0, xs1, xs2)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S2048x1) hz]
  simp only [View.readAt_eq_ld, harg2.read_unread, harg3.read_unread, harg4.read_unread, harg6.read_unread, harg7.read_unread, harg8.read_unread,
    View.ld_unit_zero (S := S2048x1) hz, View.ld_unit_zero (S := S2048x2048) hz, ReadNewest.readCov_cons_unit_zero (S := S2048x1) _ hz]
  rfl

end Cert.KernelIdeal.Pieces

end
-- ==== Proof.StepIdeal.lean ====
/- One sub-tile's update read at a row, at the extended reals.

   Row `p` of the three carried columns after a sub-tile: the maximum against the fold of `max` over the row's 256
   logits; the rescaled sum plus the row's shifted exponentials; the pick plus the row's logits at "column word =
   target word"; and the row's logit as the contraction of the hidden row with a weight row. -/
import proofs.«419131_j19765439496671_3_alg».proof.Proof.KStep
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepIdeal

open Cert.KernelIdeal Cert.KernelIdeal.KStep
open Idealize.ShloMosaic Idealize.ShloMosaic.TcCoe Idealize.ShloMosaic.ValueIdx

/-- The target word with the ignore value −100 replaced by column 0. -/
def safeWord (w : BitVec 32) : BitVec 32 := if w = 4294967196#32 then 0#32 else w

/-! ## Words, constants and the column layouts -/

/-- The accumulator word of a maximum, `0xFF800000`, is the bottom element. -/
theorem ofBits_negInf : Ideal.ofBits .f32 0xFF800000#32 = ⊥ := by simp [Ideal.ofBits, Ideal.ieee]

/-- A word compare "not equal" is the bit 1 exactly when the words differ. -/
theorem cmpi_ne_eq_one (x c : BitVec 32) : IntOp.cmpi .ne x c = 1 ↔ x ≠ c := by
  show BitVec.ofBool (x != c) = 1 ↔ x ≠ c
  by_cases h : x = c
  · subst h; simp
  · have hb : (x != c) = true := bne_iff_ne.mpr h
    rw [hb]; simp [h]

/-- A word compare "equal" is the bit 1 exactly when the words agree. -/
theorem cmpi_eq_eq_one (x c : BitVec 32) : IntOp.cmpi .eq x c = 1 ↔ x = c := by
  show BitVec.ofBool (x == c) = 1 ↔ x = c
  by_cases h : x = c
  · subst h; simp
  · have hb : (x == c) = false := beq_eq_false_iff_ne.mpr h
    rw [hb]; simp [h]

/-- A vector `[a]` cast to the column `[a, 1]` reads, at `(i, u)`, the operand at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row maximum of a 2048×256 vector, kept as a column: at row `p` the fold of `max` from the bottom element over
    the row's 256 entries. -/
theorem rowMax_apply (lg : FVec Ideal S2048x256 .f32) (h : S2048x256.Reduces [1] S2048) (hφ : FKind.Formats .f32)
    (hacc : (0xFF800000#32 : BitVec 32) = FKind.maximumf.neutral .f32 hφ) (hc : S2048.ShapeCasts S2048x1) (p : Fin 2048) :
    shapeCast S2048x1 (multiReduction .maximumf [1] S2048 lg 0xFF800000#32 h hφ hacc) hc (ix2 p (0 : Fin 1))
      = (Finset.univ : Finset (Fin 256)).fold max ⊥ fun k => (lg (ix2 p k) : EReal) := by
  refine (shapeCast_a_a1_apply _ hc p 0).trans ?_
  refine (Ideal.multiReduction_maximumf_single lg _ h hφ hacc (ix1 p)).trans ?_
  show (Finset.univ : Finset (Fin 256)).fold max (Ideal.ofBits .f32 0xFF800000#32) (fun k => lg (h.lift (ix1 p) k)) = _
  rw [ofBits_negInf]
  refine congrArg (fun f => Finset.fold max (⊥ : EReal) f (Finset.univ : Finset (Fin 256))) (funext fun k => congrArg lg (funext fun a => Fin.ext ?_))
  match a with
  | ⟨0, _⟩ => rfl
  | ⟨1, _⟩ => rfl

/-- The row sum of a 2048×256 vector, kept as a column: at row `p` the sum of the row's 256 entries. -/
theorem rowSum_apply (v : FVec Ideal S2048x256 .f32) (h : S2048x256.Reduces [1] S2048) (hφ : FKind.Formats .f32)
    (hacc : (0x00000000#32 : BitVec 32) = FKind.add.neutral .f32 hφ) (hc : S2048.ShapeCasts S2048x1) (p : Fin 2048) :
    shapeCast S2048x1 (multiReduction .add [1] S2048 v 0x00000000#32 h hφ hacc) hc (ix2 p (0 : Fin 1))
      = ∑ k : Fin 256, (v (ix2 p k) : EReal) := by
  refine (shapeCast_a_a1_apply _ hc p 0).trans ?_
  refine (Ideal.multiReduction_add_single v _ h hφ hacc (ix1 p)).trans ?_
  show ∑ k : Fin 256, v (h.lift (ix1 p) k) = _
  refine Finset.sum_congr rfl fun k _ => congrArg v (funext fun a => Fin.ext ?_)
  match a with
  | ⟨0, _⟩ => rfl
  | ⟨1, _⟩ => rfl

/-! ## The sub-tile's matrix product at an index

The contraction is over axis 1 of both operands: at output `(p, k)` and contraction coordinate `d` the left operand is
read at `(p, d)` and the right one at `(k, d)`. -/

theorem lhs_logits_0 (i : S2048x256.Idx) (q : dot_S2048x2048_S256x2048_S2048x256_1_1_0_0_n_n.contr.Idx) :
    (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
theorem lhs_logits_1 (i : S2048x256.Idx) (q : dot_S2048x2048_S256x2048_S2048x256_1_1_0_0_n_n.contr.Idx) :
    (dot_S2048x2048_S256x2048_S2048x256_1_1_0_0_n_n.lhsIdx i q 1).val = (q ⟨0, by decide⟩).val :=
  dot_S2048x2048_S256x2048_S2048x256_1_1_0_0_n_n.lhsIdx_val_of_single rfl i q
theorem rhs_logits_0 (i : S2048x256.Idx) (q : dot_S2048x2048_S256x2048_S2048x256_1_1_0_0_n_n.contr.Idx) :
    (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
theorem rhs_logits_1 (i : S2048x256.Idx) (q : dot_S2048x2048_S256x2048_S2048x256_1_1_0_0_n_n.contr.Idx) :
    (dot_S2048x2048_S256x2048_S2048x256_1_1_0_0_n_n.rhsIdx i q 1).val = (q ⟨0, by decide⟩).val :=
  dot_S2048x2048_S256x2048_S2048x256_1_1_0_0_n_n.rhsIdx_val_of_single rfl i q

/-- The product into the zero splat, at `(p, k)`: row `p` of the left operand against row `k` of the right one. -/
theorem matmul_rows_apply (x : FVec Ideal S2048x2048 .bf16) (y : FVec Ideal S256x2048 .bf16) (p : Fin 2048) (k : Fin 256) :
    matmul dot_S2048x2048_S256x2048_S2048x256_1_1_0_0_n_n none x y (constant S2048x256 .f32 0x00000000#32) (ix2 p k)
      = ∑ d : Fin 2048, (x (ix2 p d) : EReal) * (y (ix2 k d) : EReal) := by
  simp only [matmul]
  rw [Ideal.matmul_constant_zero_apply, ← Equiv.sum_comp (ValueIdx.contrEquiv1 dot_S2048x2048_S256x2048_S2048x256_1_1_0_0_n_n 2048 rfl rfl).symm]
  refine Finset.sum_congr rfl fun d _ => ?_
  have hk := ValueIdx.contrEquiv1_symm_val dot_S2048x2048_S256x2048_S2048x256_1_1_0_0_n_n 2048 rfl rfl d
  have el : dot_S2048x2048_S256x2048_S2048x256_1_1_0_0_n_n.lhsIdx (ix2 p k) ((ValueIdx.contrEquiv1 dot_S2048x2048_S256x2048_S2048x256_1_1_0_0_n_n 2048 rfl rfl).symm d) = ix2 p d := funext fun a => Fin.ext (by
    match a with
    | ⟨0, _⟩ => exact lhs_logits_0 _ _
    | ⟨1, _⟩ => exact (lhs_logits_1 _ _).trans hk)
  have er : dot_S2048x2048_S256x2048_S2048x256_1_1_0_0_n_n.rhsIdx (ix2 p k) ((ValueIdx.contrEquiv1 dot_S2048x2048_S256x2048_S2048x256_1_1_0_0_n_n 2048 rfl rfl).symm d) = ix2 k d := funext fun a => Fin.ext (by
    match a with
    | ⟨0, _⟩ => exact rhs_logits_0 _ _
    | ⟨1, _⟩ => exact (rhs_logits_1 _ _).trans hk)
  rw [el, er]

/-- A logit of a sub-tile: the hidden row against a weight row, summed over the model axis. -/
theorem logits_apply (h : Vec Ideal S2048x2048 .bf16) (w : Vec Ideal S256x2048 .bf16) (p : Fin 2048) (k : Fin 256) :
    logits (F := Ideal) h w (ix2 p k) = ∑ d : Fin 2048, (h (ix2 p d) : EReal) * (w (ix2 k d) : EReal) := by
  unfold logits
  rw [shapeCast_self, shapeCast_self]
  exact matmul_rows_apply h w p k

/-- Rows `off + k` of the weight block: a unit-stride rectangle at offset `(off, 0)` reads `(k, d)` at `(off + k, d)`. -/
theorem wsub0_apply (x1 : Vec Ideal S1280x2048 .bf16) (k : Fin 256) (d : Fin 2048) :
    wsub0 (F := Ideal) x1 (ix2 k d) = x1 (ix2 (⟨0 + k.val, by have := k.isLt; omega⟩ : Fin 1280) d) := by
  show x1 _ = x1 _
  refine congrArg x1 (funext fun a => Fin.ext ?_)
  match a with
  | ⟨0, _⟩ => show 0 + 1 * k.val = 0 + k.val; omega
  | ⟨1, _⟩ => show 0 + 1 * d.val = d.val; omega
theorem wsub1_apply (x1 : Vec Ideal S1280x2048 .bf16) (k : Fin 256) (d : Fin 2048) :
    wsub1 (F := Ideal) x1 (ix2 k d) = x1 (ix2 (⟨256 + k.val, by have := k.isLt; omega⟩ : Fin 1280) d) := by
  show x1 _ = x1 _
  refine congrArg x1 (funext fun a => Fin.ext ?_)
  match a with
  | ⟨0, _⟩ => show 256 + 1 * k.val = 256 + k.val; omega
  | ⟨1, _⟩ => show 0 + 1 * d.val = d.val; omega
theorem wsub2_apply (x1 : Vec Ideal S1280x2048 .bf16) (k : Fin 256) (d : Fin 2048) :
    wsub2 (F := Ideal) x1 (ix2 k d) = x1 (ix2 (⟨512 + k.val, by have := k.isLt; omega⟩ : Fin 1280) d) := by
  show x1 _ = x1 _
  refine congrArg x1 (funext fun a => Fin.ext ?_)
  match a with
  | ⟨0, _⟩ => show 512 + 1 * k.val = 512 + k.val; omega
  | ⟨1, _⟩ => show 0 + 1 * d.val = d.val; omega
theorem wsub3_apply (x1 : Vec Ideal S1280x2048 .bf16) (k : Fin 256) (d : Fin 2048) :
    wsub3 (F := Ideal) x1 (ix2 k d) = x1 (ix2 (⟨768 + k.val, by have := k.isLt; omega⟩ : Fin 1280) d) := by
  show x1 _ = x1 _
  refine congrArg x1 (funext fun a => Fin.ext ?_)
  match a with
  | ⟨0, _⟩ => show 768 + 1 * k.val = 768 + k.val; omega
  | ⟨1, _⟩ => show 0 + 1 * d.val = d.val; omega
theorem wsub4_apply (x1 : Vec Ideal S1280x2048 .bf16) (k : Fin 256) (d : Fin 2048) :
    wsub4 (F := Ideal) x1 (ix2 k d) = x1 (ix2 (⟨1024 + k.val, by have := k.isLt; omega⟩ : Fin 1280) d) := by
  show x1 _ = x1 _
  refine congrArg x1 (funext fun a => Fin.ext ?_)
  match a with
  | ⟨0, _⟩ => show 1024 + 1 * k.val = 1024 + k.val; omega
  | ⟨1, _⟩ => show 0 + 1 * d.val = d.val; omega

/-! ## The three columns after a sub-tile

Each stored column is the cast of the computed one to its own shape, the identity. -/

theorem step_fst (col0 : BitVec 32) (tg : Vec Ideal S2048x1 .i32) (lg : FVec Ideal S2048x256 .f32) (s : St Ideal) :
    (step col0 tg lg s).1 = newMax lg s.1 := by
  show shapeCast S2048x1 (newMax lg s.1) _ = newMax lg s.1
  exact shapeCast_self _ _

theorem step_snd_fst (col0 : BitVec 32) (tg : Vec Ideal S2048x1 .i32) (lg : FVec Ideal S2048x256 .f32) (s : St Ideal) :
    (step col0 tg lg s).2.1 = newSum lg s.1 s.2.1 := by
  show shapeCast S2048x1 (newSum lg s.1 s.2.1) _ = newSum lg s.1 s.2.1
  exact shapeCast_self _ _

theorem step_snd_snd (col0 : BitVec 32) (tg : Vec Ideal S2048x1 .i32) (lg : FVec Ideal S2048x256 .f32) (s : St Ideal) :
    (step col0 tg lg s).2.2 = newPick col0 tg lg s.2.2 := by
  show shapeCast S2048x1 (newPick col0 tg lg s.2.2) _ = newPick col0 tg lg s.2.2
  exact shapeCast_self _ _

/-- The new maximum at row `p`: the old one against the row's maximum. -/
theorem newMax_apply (lg : FVec Ideal S2048x256 .f32) (mOld : Vec Ideal S2048x1 .f32) (p : Fin 2048) :
    (newMax (F := Ideal) lg mOld (ix2 p (0 : Fin 1)) : EReal)
      = max (mOld (ix2 p (0 : Fin 1)) : EReal) ((Finset.univ : Finset (Fin 256)).fold max ⊥ fun k => (lg (ix2 p k) : EReal)) := by
  unfold newMax
  refine (maximumf_apply _ _ _).trans ?_
  exact congrArg (max _) (rowMax_apply lg _ _ _ _ p)

/-- The maximum column after a sub-tile, at row `p`. -/
theorem step_max_apply (col0 : BitVec 32) (tg : Vec Ideal S2048x1 .i32) (lg : FVec Ideal S2048x256 .f32) (s : St Ideal) (p : Fin 2048) :
    ((step col0 tg lg s).1 (ix2 p (0 : Fin 1)) : EReal)
      = max (s.1 (ix2 p (0 : Fin 1)) : EReal) ((Finset.univ : Finset (Fin 256)).fold max ⊥ fun k => (lg (ix2 p k) : EReal)) := by
  rw [step_fst]
  exact newMax_apply lg s.1 p

/-- The new sum at row `p`: the old one rescaled to the new maximum, plus the row's exponentials shifted by it (the new
    maximum's column, broadcast along the lanes, reads the same entry at every lane of the row). -/
theorem newSum_apply (lg : FVec Ideal S2048x256 .f32) (mOld lOld : Vec Ideal S2048x1 .f32) (p : Fin 2048) :
    (newSum (F := Ideal) lg mOld lOld (ix2 p (0 : Fin 1)) : EReal)
      = Ideal.exp ((mOld (ix2 p (0 : Fin 1)) : EReal) - (newMax (F := Ideal) lg mOld (ix2 p (0 : Fin 1)) : EReal)) * (lOld (ix2 p (0 : Fin 1)) : EReal)
        + ∑ k : Fin 256, Ideal.exp ((lg (ix2 p k) : EReal) - (newMax (F := Ideal) lg mOld (ix2 p (0 : Fin 1)) : EReal)) := by
  unfold newSum
  refine (addf_apply _ _ _).trans ?_
  refine congrArg₂ (· + ·) rfl ?_
  refine (rowSum_apply _ _ _ _ _ p).trans ?_
  refine Finset.sum_congr rfl fun k _ => ?_
  show Ideal.exp ((lg (ix2 p k) : EReal) - broadcastTo S2048x256 (newMax (F := Ideal) lg mOld) _ (ix2 p k)) = _
  rw [broadcastTo_a1_ab_apply]

/-- The sum column after a sub-tile, at row `p`. -/
theorem step_sum_apply (col0 : BitVec 32) (tg : Vec Ideal S2048x1 .i32) (lg : FVec Ideal S2048x256 .f32) (s : St Ideal) (p : Fin 2048) :
    ((step col0 tg lg s).2.1 (ix2 p (0 : Fin 1)) : EReal)
      = Ideal.exp ((s.1 (ix2 p (0 : Fin 1)) : EReal) - ((step col0 tg lg s).1 (ix2 p (0 : Fin 1)) : EReal)) * (s.2.1 (ix2 p (0 : Fin 1)) : EReal)
        + ∑ k : Fin 256, Ideal.exp ((lg (ix2 p k) : EReal) - ((step col0 tg lg s).1 (ix2 p (0 : Fin 1)) : EReal)) := by
  rw [step_fst, step_snd_fst]
  exact newSum_apply lg s.1 s.2.1 p

/-- The safe target word at a row: the select on "target ≠ −100" between the target and column 0. -/
theorem safeTgt_apply (tg : Vec Ideal S2048x1 .i32) (p : Fin 2048) :
    safeTgt (F := Ideal) tg (ix2 p (0 : Fin 1)) = safeWord (tg (ix2 p (0 : Fin 1))) := by
  unfold safeTgt
  rw [shapeCast_self]
  show Scalar.select (IntOp.cmpi .ne (tg (ix2 p (0 : Fin 1))) 4294967196#32) (tg (ix2 p (0 : Fin 1))) 0#32 = _
  unfold Scalar.select safeWord
  by_cases hx : tg (ix2 p (0 : Fin 1)) = 4294967196#32
  · rw [if_pos hx, if_neg (fun hc => ((cmpi_ne_eq_one _ _).mp hc) hx)]
  · rw [if_neg hx, if_pos ((cmpi_ne_eq_one _ _).mpr hx)]

/-- The new pick at row `p`: the old one plus the row's logits where the column word (the sub-tile's first column plus
    the lane number) is the row's safe target word, zero elsewhere. -/
theorem newPick_apply (col0 : BitVec 32) (tg : Vec Ideal S2048x1 .i32) (lg : FVec Ideal S2048x256 .f32) (tOld : Vec Ideal S2048x1 .f32) (p : Fin 2048) :
    (newPick (F := Ideal) col0 tg lg tOld (ix2 p (0 : Fin 1)) : EReal)
      = (tOld (ix2 p (0 : Fin 1)) : EReal)
        + ∑ k : Fin 256, if col0 + BitVec.ofNat 32 k.val = safeWord (tg (ix2 p (0 : Fin 1))) then (lg (ix2 p k) : EReal) else 0 := by
  unfold newPick
  refine (addf_apply _ _ _).trans ?_
  refine congrArg₂ (· + ·) rfl ?_
  refine (rowSum_apply _ _ _ _ _ p).trans ?_
  refine Finset.sum_congr rfl fun k _ => ?_
  show Scalar.select (IntOp.cmpi .eq (IntOp.addi col0 (iota .tc S2048x256 32 [1] _ (ix2 p k)))
      (broadcastTo S2048x256 (safeTgt (F := Ideal) tg) _ (ix2 p k))) (lg (ix2 p k) : EReal) (Ideal.ofBits .f32 0x00000000#32) = _
  rw [broadcastTo_a1_ab_apply, safeTgt_apply, iota_single_apply, Ideal.ofBits_zero_f32]
  show Scalar.select (IntOp.cmpi .eq (col0 + BitVec.ofNat 32 k.val) (safeWord (tg (ix2 p (0 : Fin 1))))) (lg (ix2 p k) : EReal) 0 = _
  unfold Scalar.select
  by_cases hx : col0 + BitVec.ofNat 32 k.val = safeWord (tg (ix2 p (0 : Fin 1)))
  · rw [if_pos hx, if_pos ((cmpi_eq_eq_one _ _).mpr hx)]
  · rw [if_neg hx, if_neg (fun hc => hx ((cmpi_eq_eq_one _ _).mp hc))]

/-- The pick column after a sub-tile, at row `p`. -/
theorem step_pick_apply (col0 : BitVec 32) (tg : Vec Ideal S2048x1 .i32) (lg : FVec Ideal S2048x256 .f32) (s : St Ideal) (p : Fin 2048) :
    ((step col0 tg lg s).2.2 (ix2 p (0 : Fin 1)) : EReal)
      = (s.2.2 (ix2 p (0 : Fin 1)) : EReal)
        + ∑ k : Fin 256, if col0 + BitVec.ofNat 32 k.val = safeWord (tg (ix2 p (0 : Fin 1))) then (lg (ix2 p k) : EReal) else 0 := by
  rw [step_snd_snd]
  exact newPick_apply col0 tg lg s.2.2 p

/-- The initial columns at row `p`: the bottom element, zero, zero. -/
theorem init_apply (p : Fin 2048) :
    ((init (F := Ideal)).1 (ix2 p (0 : Fin 1)) : EReal) = ⊥
    ∧ ((init (F := Ideal)).2.1 (ix2 p (0 : Fin 1)) : EReal) = 0
    ∧ ((init (F := Ideal)).2.2 (ix2 p (0 : Fin 1)) : EReal) = 0 := by
  unfold init
  simp only [shapeCast_self]
  refine ⟨?_, ?_, ?_⟩
  · show Ideal.ofBits .f32 0xFF800000#32 = ⊥
    exact ofBits_negInf
  · show Ideal.ofBits .f32 0x00000000#32 = 0
    exact Ideal.ofBits_zero_f32
  · show Ideal.ofBits .f32 0x00000000#32 = 0
    exact Ideal.ofBits_zero_f32

/-- The output block at row `p`: zero on an ignored row, else maximum plus log of the sum, minus the pick. -/
theorem finish_apply (x2 : Vec Ideal S2048x1 .i32) (s : St Ideal) (p : Fin 2048) :
    (finish (F := Ideal) x2 s (ix2 p (0 : Fin 1)) : EReal)
      = if x2 (ix2 p (0 : Fin 1)) = 4294967196#32 then 0
        else ((s.1 (ix2 p (0 : Fin 1)) : EReal) + Ideal.log (s.2.1 (ix2 p (0 : Fin 1)) : EReal)) - (s.2.2 (ix2 p (0 : Fin 1)) : EReal) := by
  unfold finish validMask
  rw [shapeCast_self]
  show Scalar.select (IntOp.cmpi .ne (x2 (ix2 p (0 : Fin 1))) 4294967196#32)
      (((s.1 (ix2 p (0 : Fin 1)) : EReal) + Ideal.log (s.2.1 (ix2 p (0 : Fin 1)) : EReal)) - (s.2.2 (ix2 p (0 : Fin 1)) : EReal))
      (Ideal.ofBits .f32 0x00000000#32) = _
  rw [Ideal.ofBits_zero_f32]
  unfold Scalar.select
  by_cases hx : x2 (ix2 p (0 : Fin 1)) = 4294967196#32
  · rw [if_pos hx, if_neg (fun hc => ((cmpi_ne_eq_one _ _).mp hc) hx)]
  · rw [if_neg hx, if_pos ((cmpi_ne_eq_one _ _).mpr hx)]

end Cert.KernelIdeal.StepIdeal

end
-- ==== Proof.PointIdeal.lean ====
/- A grid point's five sub-tiles at one row, against the running values of `RowMath`.

   If row `p` of the three columns holds the running maximum, sum and pick of the first `1280·kv` logits of a token
   row, then after the five sub-tiles of vocabulary block `kv` it holds those of the first `1280·(kv+1)`: each sub-tile
   is one step of the streaming update, its 256 logits being the next 256 columns, and the column word the kernel
   compares with the target word is the column's number (no wrap below 32000). -/
import proofs.«419131_j19765439496671_3_alg».proof.Proof.StepIdeal
import proofs.«419131_j19765439496671_3_alg».proof.Proof.RowMath

noncomputable section

namespace Cert.KernelIdeal.PointIdeal

open Cert.KernelIdeal Cert.KernelIdeal.KStep Cert.KernelIdeal.StepIdeal Cert.RowMath
open Idealize.ShloMosaic Idealize.ShloMosaic.TcCoe Idealize.ShloMosaic.ValueIdx

/-- Row `p` of the columns holds the running values of the first `n` logits `zr` with target column `tN`. -/
def RowAt (zr : ℕ → ℝ) (tN : ℕ) (s : St Ideal) (p : Fin 2048) (n : ℕ) : Prop :=
  (s.1 (ix2 p (0 : Fin 1)) : EReal) = runMax zr n
  ∧ (s.2.1 (ix2 p (0 : Fin 1)) : EReal) = runSum zr n
  ∧ (s.2.2 (ix2 p (0 : Fin 1)) : EReal) = runPick zr tN n

/-- Two numbers below 2³² with the same 32-bit word are equal. -/
theorem word_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-- The first column word of a sub-tile is the column's number. -/
theorem colWord_eq (kv off : ℕ) : colWord (BitVec.ofNat 32 kv) (BitVec.ofNat 32 off) = BitVec.ofNat 32 (1280 * kv + off) := by
  show BitVec.ofNat 32 kv * BitVec.ofNat 32 1280 + BitVec.ofNat 32 off = _
  rw [BitVec.ofNat_mul_ofNat, BitVec.ofNat_add_ofNat, Nat.mul_comm]

/-- One sub-tile at a row: from the first `col` logits to the first `col + 256`. -/
theorem step_row (zr : ℕ → ℝ) (tN : ℕ) (col n' : ℕ) (hn' : n' = col + 256) (hcol : col + 256 ≤ 32000)
    (colw : BitVec 32) (hcw : colw = BitVec.ofNat 32 col)
    (tg : Vec Ideal S2048x1 .i32) (lg : FVec Ideal S2048x256 .f32) (s : St Ideal) (p : Fin 2048)
    (hlg : ∀ k : Fin 256, (lg (ix2 p k) : EReal) = (zr (col + k.val) : EReal))
    (htg : safeWord (tg (ix2 p (0 : Fin 1))) = BitVec.ofNat 32 tN) (htN : tN < 32000)
    (hs : RowAt zr tN s p col) : RowAt zr tN (step colw tg lg s) p n' := by
  subst hn' hcw
  obtain ⟨h1, h2, h3⟩ := hs
  have hM : ((step (BitVec.ofNat 32 col) tg lg s).1 (ix2 p (0 : Fin 1)) : EReal) = runMax zr (col + 256) := by
    rw [step_max_apply, h1]
    simp only [hlg]
    exact runMax_step zr col 256
  refine ⟨hM, ?_, ?_⟩
  · rw [step_sum_apply, hM, h1, h2]
    simp only [hlg]
    exact runSum_step zr col 256 (by norm_num)
  · rw [step_pick_apply, h3, htg]
    simp only [hlg]
    have hw : ∀ k : Fin 256, (BitVec.ofNat 32 col + BitVec.ofNat 32 k.val = BitVec.ofNat 32 tN) ↔ (col + k.val = tN) := fun k => by
      rw [BitVec.ofNat_add_ofNat]
      exact word_eq_iff (by have := k.isLt; omega) (by omega)
    simp only [hw]
    exact runPick_step zr tN col 256

/-- The five sub-tiles of vocabulary block `kv` at a row: from the first `1280·kv` logits to the first `1280·(kv+1)`. -/
theorem point_row (zr : ℕ → ℝ) (tN : ℕ) (kv : ℕ) (hkv : kv < 25)
    (x0 : Vec Ideal S2048x2048 .bf16) (x1 : Vec Ideal S1280x2048 .bf16) (x2 : Vec Ideal S2048x1 .i32) (s : St Ideal) (p : Fin 2048)
    (hlog : ∀ a : Fin 1280, ∑ d : Fin 2048, (x0 (ix2 p d) : EReal) * (x1 (ix2 a d) : EReal) = (zr (1280 * kv + a.val) : EReal))
    (htg : safeWord (x2 (ix2 p (0 : Fin 1))) = BitVec.ofNat 32 tN) (htN : tN < 32000)
    (hs : RowAt zr tN s p (1280 * kv)) :
    RowAt zr tN (point (BitVec.ofNat 32 kv) x0 x1 x2 s) p (1280 * (kv + 1)) := by
  unfold point
  have s0 := step_row zr tN (1280 * kv) (1280 * kv + 256) rfl (by omega) (colWord (BitVec.ofNat 32 kv) 0#32)
    ((colWord_eq kv 0).trans (by rw [Nat.add_zero])) x2 (logits x0 (wsub0 x1)) s p
    (fun k => by
      rw [logits_apply]
      refine (Finset.sum_congr rfl fun d _ => congrArg (fun t => (x0 (ix2 p d) : EReal) * t) (wsub0_apply x1 k d)).trans ?_
      exact (hlog _).trans (by show (zr (1280 * kv + (0 + k.val)) : EReal) = _; rw [Nat.zero_add])) htg htN hs
  have s1 := step_row zr tN (1280 * kv + 256) (1280 * kv + 512) (by omega) (by omega) (colWord (BitVec.ofNat 32 kv) 256#32)
    (colWord_eq kv 256) x2 (logits x0 (wsub1 x1)) _ p
    (fun k => by
      rw [logits_apply]
      refine (Finset.sum_congr rfl fun d _ => congrArg (fun t => (x0 (ix2 p d) : EReal) * t) (wsub1_apply x1 k d)).trans ?_
      exact (hlog _).trans (by show (zr (1280 * kv + (256 + k.val)) : EReal) = _; rw [Nat.add_assoc])) htg htN s0
  have s2 := step_row zr tN (1280 * kv + 512) (1280 * kv + 768) (by omega) (by omega) (colWord (BitVec.ofNat 32 kv) 512#32)
    (colWord_eq kv 512) x2 (logits x0 (wsub2 x1)) _ p
    (fun k => by
      rw [logits_apply]
      refine (Finset.sum_congr rfl fun d _ => congrArg (fun t => (x0 (ix2 p d) : EReal) * t) (wsub2_apply x1 k d)).trans ?_
      exact (hlog _).trans (by show (zr (1280 * kv + (512 + k.val)) : EReal) = _; rw [Nat.add_assoc])) htg htN s1
  have s3 := step_row zr tN (1280 * kv + 768) (1280 * kv + 1024) (by omega) (by omega) (colWord (BitVec.ofNat 32 kv) 768#32)
    (colWord_eq kv 768) x2 (logits x0 (wsub3 x1)) _ p
    (fun k => by
      rw [logits_apply]
      refine (Finset.sum_congr rfl fun d _ => congrArg (fun t => (x0 (ix2 p d) : EReal) * t) (wsub3_apply x1 k d)).trans ?_
      exact (hlog _).trans (by show (zr (1280 * kv + (768 + k.val)) : EReal) = _; rw [Nat.add_assoc])) htg htN s2
  exact step_row zr tN (1280 * kv + 1024) (1280 * (kv + 1)) (by omega) (by omega) (colWord (BitVec.ofNat 32 kv) 1024#32)
    (colWord_eq kv 1024) x2 (logits x0 (wsub4 x1)) _ p
    (fun k => by
      rw [logits_apply]
      refine (Finset.sum_congr rfl fun d _ => congrArg (fun t => (x0 (ix2 p d) : EReal) * t) (wsub4_apply x1 k d)).trans ?_
      exact (hlog _).trans (by show (zr (1280 * kv + (1024 + k.val)) : EReal) = _; rw [Nat.add_assoc])) htg htN s3

/-- The initial columns hold the running values of no logits. -/
theorem init_row (zr : ℕ → ℝ) (tN : ℕ) (p : Fin 2048) : RowAt zr tN (init (F := Ideal)) p 0 := by
  obtain ⟨h1, h2, h3⟩ := init_apply p
  exact ⟨h1.trans (runMax_zero zr).symm, h2.trans (runSum_zero zr).symm, h3.trans (runPick_zero zr tN).symm⟩

end Cert.KernelIdeal.PointIdeal

end
-- ==== Proof.KernelArrays.lean ====
/- The arrays the pallas_call finds and the blocks its windows read, at the extended reals.

   Before the call the host reshapes the hidden states to [8192, 2048] and the targets to [8192, 1] and narrows both
   float arrays to bf16 (the identity here).  So row `r` of the hidden window's array is token row `r`, the weight
   window's array is the weight, and row `r` of the target window's array is token row `r`'s target word.  At grid point
   `t` (token block `t / 25`, vocabulary block `t % 25`) the hidden and target blocks are rows `2048·(t/25) + p`, the
   weight block rows `1280·(t%25) + a`. -/
import proofs.«419131_j19765439496671_3_alg».proof.Proof.Gen.KernelIdeal.Frame
import proofs.«419131_j19765439496671_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KArr

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The three argument arrays. -/
abbrev argH (c : Dev nD) : Cert.Spec.SH.Idx → EReal := m ((c : Thread nD τ).loc main_arg0)
abbrev argT (c : Dev nD) : Cert.Spec.ST.Idx → BitVec 32 := m ((c : Thread nD τ).loc main_arg1)
abbrev argW (c : Dev nD) : Cert.Spec.SW.Idx → EReal := m ((c : Thread nD τ).loc main_arg2)

/-- The arrays of the three input windows, as the call finds them. -/
abbrev arrH (c : Dev nD) : Vec Ideal S8192x2048 .bf16 := V m c main_v4
abbrev arrW (c : Dev nD) : Vec Ideal S32000x2048 .bf16 := V m c main_v5
abbrev arrT (c : Dev nD) : Vec Ideal S8192x1 .i32 := V m c main_v6

/-- The hidden window's array is the reshaped hidden states. -/
theorem arrH_apply (c : Dev nD) (r : Fin 8192) (d : Fin 2048) :
    (arrH m c (ix2 r d) : EReal) = Cert.Spec.hid (argH m c) r d := by
  have e : arrH m c = truncf (F := Ideal) .bf16 (shapeCast S8192x2048 (argH m c) shapeCasts_S4x2048x2048_S8192x2048) bitsLt_bf16_f32 := by
    show StableHlo.after hostOps0 (fun b => m (c, b)) (Proc.devRef .tc main_v4) = _
    after_results; rfl
  rw [e]
  show shapeCast S8192x2048 (argH m c) shapeCasts_S4x2048x2048_S8192x2048 (ix2 r d) = _
  unfold Cert.Spec.hid
  exact shapeCast_apply _ _ _ _ (by
    rewrite [Shape.rowMajor_val_three, Shape.rowMajor_val_two]
    show ((r.val / 2048) * 2048 + r.val % 2048) * 2048 + d.val = r.val * 2048 + d.val
    omega)

/-- The weight window's array is the weight. -/
theorem arrW_apply (c : Dev nD) (v : Fin 32000) (d : Fin 2048) :
    (arrW m c (ix2 v d) : EReal) = argW m c (ix2 v d) := by
  have e : arrW m c = truncf (F := Ideal) .bf16 (argW m c) bitsLt_bf16_f32 := by
    show StableHlo.after hostOps0 (fun b => m (c, b)) (Proc.devRef .tc main_v5) = _
    after_results
  rw [e]
  rfl

/-- The target window's array holds the token rows' target words. -/
theorem arrT_apply (c : Dev nD) (r : Fin 8192) :
    arrT m c (ix2 r (0 : Fin 1)) = Cert.Spec.tgtWord (argT m c) r := by
  have e : arrT m c = shapeCast S8192x1 (shapeCast S8192 (argT m c) shapeCasts_S4x2048_S8192) shapeCasts_S8192_S8192x1 := by
    show StableHlo.after hostOps0 (fun b => m (c, b)) (Proc.devRef .tc main_v6) = _
    after_results; rfl
  rw [e]
  unfold Cert.Spec.tgtWord
  rw [shapeCast_apply _ _ (ix2 r (0 : Fin 1)) (ix1 r) (by
    rewrite [Shape.rowMajor_val_one, Shape.rowMajor_val_two]
    show r.val = r.val * 1 + 0
    omega)]
  exact shapeCast_apply _ _ _ _ (by
    rewrite [Shape.rowMajor_val_two, Shape.rowMajor_val_one]
    show (r.val / 2048) * 2048 + r.val % 2048 = r.val
    omega)

/-- The blocks the three input windows read at a grid point. -/
abbrev blkH (c : Dev nD) (t : Fin cfg0.N) : Vec Ideal S2048x2048 .bf16 := iblk m c 0 t
abbrev blkW (c : Dev nD) (t : Fin cfg0.N) : Vec Ideal S1280x2048 .bf16 := iblk m c 1 t
abbrev blkT (c : Dev nD) (t : Fin cfg0.N) : Vec Ideal S2048x1 .i32 := iblk m c 2 t

/-- The block indices of the windows over the grid: the token block and the vocabulary block of the point. -/
theorem idx_facts : ∀ t : Fin cfg0.N,
    (win0_0.index t (0 : Fin 2) = t.val / 25 ∧ win0_0.index t (1 : Fin 2) = 0)
    ∧ (win0_1.index t (0 : Fin 2) = t.val % 25 ∧ win0_1.index t (1 : Fin 2) = 0)
    ∧ (win0_2.index t (0 : Fin 2) = t.val / 25 ∧ win0_2.index t (1 : Fin 2) = 0)
    ∧ (win0_3.index t (0 : Fin 2) = t.val / 25 ∧ win0_3.index t (1 : Fin 2) = 0) :=
  (by decide +kernel : ∀ t : Fin grid0.N, _)

theorem blkH_apply (c : Dev nD) (t : Fin cfg0.N) (p : Fin 2048) (d : Fin 2048) :
    blkH m c t (ix2 p d) = arrH m c (ix2 (⟨2048 * (t.val / 25) + p.val, by have := t.isLt; have hN : cfg0.N = 100 := N_0; have := p.isLt; omega⟩ : Fin 8192) d) := by
  obtain ⟨⟨h0, h1⟩, -, -, -⟩ := idx_facts t
  unfold blkH iblk
  rw [View.read_apply]
  show V m c main_v4 _ = V m c main_v4 _
  congr 1
  funext a
  apply Fin.ext
  match a with
  | ⟨0, _⟩ => show win0_0.index t 0 * 2048 + 1 * p.val = 2048 * (t.val / 25) + p.val; rw [h0]; omega
  | ⟨1, _⟩ => show win0_0.index t 1 * 2048 + 1 * d.val = d.val; rw [h1]; omega

theorem blkW_apply (c : Dev nD) (t : Fin cfg0.N) (a : Fin 1280) (d : Fin 2048) :
    blkW m c t (ix2 a d) = arrW m c (ix2 (⟨1280 * (t.val % 25) + a.val, by have := a.isLt; have := Nat.mod_lt t.val (by norm_num : 25 > 0); omega⟩ : Fin 32000) d) := by
  obtain ⟨-, ⟨h0, h1⟩, -, -⟩ := idx_facts t
  unfold blkW iblk
  rw [View.read_apply]
  show V m c main_v5 _ = V m c main_v5 _
  congr 1
  funext b
  apply Fin.ext
  match b with
  | ⟨0, _⟩ => show win0_1.index t 0 * 1280 + 1 * a.val = 1280 * (t.val % 25) + a.val; rw [h0]; omega
  | ⟨1, _⟩ => show win0_1.index t 1 * 2048 + 1 * d.val = d.val; rw [h1]; omega

theorem blkT_apply (c : Dev nD) (t : Fin cfg0.N) (p : Fin 2048) :
    blkT m c t (ix2 p (0 : Fin 1)) = arrT m c (ix2 (⟨2048 * (t.val / 25) + p.val, by have := t.isLt; have hN : cfg0.N = 100 := N_0; have := p.isLt; omega⟩ : Fin 8192) (0 : Fin 1)) := by
  obtain ⟨-, -, ⟨h0, h1⟩, -⟩ := idx_facts t
  unfold blkT iblk
  rw [View.read_apply]
  show V m c main_v6 _ = V m c main_v6 _
  congr 1
  funext b
  apply Fin.ext
  match b with
  | ⟨0, _⟩ => show win0_2.index t 0 * 2048 + 1 * p.val = 2048 * (t.val / 25) + p.val; rw [h0]; omega
  | ⟨1, _⟩ => show win0_2.index t 1 * 1 + 1 * 0 = 0; rw [h1]

end Cert.KernelIdeal.KArr

end
-- ==== Proof.SpecFacts.lean ====
/- Consequences of the precondition for the specification: every logit is a real number, and every target column
   lies in the vocabulary. -/
import proofs.«419131_j19765439496671_3_alg».proof.Proof.Spec

noncomputable section

namespace Cert.Spec

open Idealize.ShloMosaic Idealize.ShloMosaic.ValueIdx Cert.RowMath

variable {H : SH.Idx → EReal} {T : ST.Idx → BitVec 32} {W : SW.Idx → EReal}

/-- A contraction of finite entries is a real number. -/
theorem logitE_real (hH : Finite H) (hW : Finite W) (r : Fin 8192) (v : Fin 32000) : ∃ x : ℝ, logitE H W r v = (x : EReal) := by
  choose f hf using hH
  choose g hg using hW
  refine ⟨∑ d : Fin 2048, f (ix3 (⟨r.val / 2048, by have := r.isLt; omega⟩ : Fin 4) (⟨r.val % 2048, Nat.mod_lt _ (by norm_num)⟩ : Fin 2048) d) * g (ix2 v d), ?_⟩
  unfold logitE hid
  rw [coe_sum]
  apply Finset.sum_congr rfl
  intro d _
  rw [hf, hg, EReal.coe_mul]

/-- The real logit, read back in the extended reals, is the logit. -/
theorem z_coe (hH : Finite H) (hW : Finite W) (r : Fin 8192) (v : Fin 32000) : ((z H W r v.val : ℝ) : EReal) = logitE H W r v := by
  obtain ⟨x, hx⟩ := logitE_real hH hW r v
  unfold z
  rw [dif_pos v.isLt]
  show (((logitE H W r ⟨v.val, v.isLt⟩).toReal : ℝ) : EReal) = _
  rw [show (⟨v.val, v.isLt⟩ : Fin 32000) = v from rfl, hx]
  rfl

/-- The target column of every row lies in the vocabulary. -/
theorem tgtN_lt (hT : InRange T) (r : Fin 8192) : tgtN T r < 32000 := by
  unfold tgtN
  split
  · norm_num
  · next h =>
    rcases hT (ix2 (⟨r.val / 2048, by have := r.isLt; omega⟩ : Fin 4) (⟨r.val % 2048, Nat.mod_lt _ (by norm_num)⟩ : Fin 2048)) with h' | h'
    · exact absurd h' h
    · exact h'

end Cert.Spec

end
-- ==== Proof.Invariant.lean ====
/- The carried columns after every grid point, and the output block at the last vocabulary block.

   By induction on the grid point: after point `n` (token block `n / 25`, vocabulary block `n % 25`) row `p` of the three
   columns holds the running maximum, sum and pick of the first `1280·(n % 25 + 1)` logits of token row
   `2048·(n / 25) + p`.  A point that starts a token block runs its five sub-tiles from the initial columns, any other
   from what the point before left; each is `PointIdeal.point_row`.  At the last vocabulary block all 32000 logits have
   been seen and the block written out is the row's loss. -/
import proofs.«419131_j19765439496671_3_alg».proof.Proof.Pieces
import proofs.«419131_j19765439496671_3_alg».proof.Proof.PointIdeal
import proofs.«419131_j19765439496671_3_alg».proof.Proof.KernelArrays
import proofs.«419131_j19765439496671_3_alg».proof.Proof.SpecFacts

set_option maxRecDepth 16384

noncomputable section

namespace Cert.KernelIdeal.Inv

open Cert.KernelIdeal Cert.KernelIdeal.Gen Cert.KernelIdeal.KStep Cert.KernelIdeal.StepIdeal Cert.KernelIdeal.PointIdeal
open Cert.KernelIdeal.Pieces Cert.KernelIdeal.KArr Cert.RowMath
open Idealize.ShloMosaic Idealize.ShloMosaic.TcCoe Idealize.ShloMosaic.ValueIdx Idealize.SL.Sem

variable (m : (ℓ : Loc nD τ sig) → Buf (Elt Ideal) ℓ)

/-- The vocabulary block of a grid point is its number modulo 25. -/
theorem coord1 : ∀ t : Fin cfg0.N, ((grid0.coords t) 1).val = t.val % 25 :=
  (by decide +kernel : ∀ t : Fin grid0.N, ((grid0.coords t) 1).val = t.val % 25)

/-- The three columns after point `n`. -/
abbrev cols (c : Dev nD) (n : ℕ) (hn : n < cfg0.N) : St Ideal := (outsAt0 m c n hn).2

/-- A point that starts a token block: the five sub-tiles from the initial columns. -/
theorem cols_A (c : Dev nD) (t : Fin cfg0.N) (h0 : t.val % 25 = 0) (h1 : ¬t.val % 25 = 24) :
    cols m c t.val t.isLt = point (BitVec.ofNat 32 ((grid0.coords t) 1).val) (blkH m c t) (blkW m c t) (blkT m c t) init := by
  unfold cols
  rw [outsAt0_A m c t h0 h1]
  dsimp only
  rw [pieceA_0, pieceA_1, pieceA_2]

/-- A middle point: the five sub-tiles from what the point before left. -/
theorem cols_B (c : Dev nD) (t : Fin cfg0.N) (h0 : ¬t.val % 25 = 0) (h1 : ¬t.val % 25 = 24) :
    cols m c t.val t.isLt = point (BitVec.ofNat 32 ((grid0.coords t) 1).val) (blkH m c t) (blkW m c t) (blkT m c t)
      (cols m c (t.val - 1) (Nat.lt_of_le_of_lt (Nat.sub_le _ _) t.isLt)) := by
  unfold cols
  rw [outsAt0_B m c t h0 h1]
  dsimp only
  rw [pieceB_0, pieceB_1, pieceB_2]

/-- The last point of a token block: the same, and the output block is the finishing formula of the columns. -/
theorem cols_C (c : Dev nD) (t : Fin cfg0.N) (h0 : ¬t.val % 25 = 0) (h1 : t.val % 25 = 24) :
    cols m c t.val t.isLt = point (BitVec.ofNat 32 ((grid0.coords t) 1).val) (blkH m c t) (blkW m c t) (blkT m c t)
      (cols m c (t.val - 1) (Nat.lt_of_le_of_lt (Nat.sub_le _ _) t.isLt)) := by
  unfold cols
  rw [outsAt0_C m c t h0 h1]
  dsimp only
  rw [pieceC_0, pieceC_1, pieceC_2]

theorem out_C (c : Dev nD) (t : Fin cfg0.N) (h0 : ¬t.val % 25 = 0) (h1 : t.val % 25 = 24) :
    (outsAt0 m c t.val t.isLt).1 = finish (blkT m c t) (cols m c t.val t.isLt) := by
  rw [cols_C m c t h0 h1]
  rw [outsAt0_C m c t h0 h1]
  dsimp only
  exact pieceC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) _ _ (iblk m c 0 t) (iblk m c 1 t) (iblk m c 2 t) _ _ _

/-- The word the kernel compares the column words with is the word of the row's target column. -/
theorem safeWord_eq (w : BitVec 32) : safeWord w = BitVec.ofNat 32 (if w = Cert.Spec.ignoreWord then 0 else w.toNat) := by
  unfold safeWord
  by_cases h : w = 4294967196#32
  · rw [if_pos h, if_pos h]
  · rw [if_neg h, if_neg h, BitVec.ofNat_toNat, BitVec.setWidth_eq]

variable {m}

/-- What `point_row` asks of the blocks at point `t`, row `p`, token row `r`. -/
theorem hlog_at (c : Dev nD) (hH : Cert.Spec.Finite (argH m c)) (hW : Cert.Spec.Finite (argW m c)) (t : Fin cfg0.N) (p : Fin 2048) (r : Fin 8192)
    (hr : r.val = 2048 * (t.val / 25) + p.val) (a : Fin 1280) :
    ∑ d : Fin 2048, (blkH m c t (ix2 p d) : EReal) * (blkW m c t (ix2 a d) : EReal)
      = ((Cert.Spec.z (argH m c) (argW m c) r (1280 * (t.val % 25) + a.val) : ℝ) : EReal) := by
  have hv : 1280 * (t.val % 25) + a.val < 32000 := by have := a.isLt; have := Nat.mod_lt t.val (by norm_num : 25 > 0); omega
  rw [show ((Cert.Spec.z (argH m c) (argW m c) r (1280 * (t.val % 25) + a.val) : ℝ) : EReal)
      = Cert.Spec.logitE (argH m c) (argW m c) r ⟨1280 * (t.val % 25) + a.val, hv⟩ from Cert.Spec.z_coe hH hW r ⟨_, hv⟩]
  unfold Cert.Spec.logitE
  apply Finset.sum_congr rfl
  intro d _
  rw [blkH_apply, arrH_apply, blkW_apply, arrW_apply]
  congr 2
  exact Fin.ext hr.symm

theorem htg_at (c : Dev nD) (t : Fin cfg0.N) (p : Fin 2048) (r : Fin 8192) (hr : r.val = 2048 * (t.val / 25) + p.val) :
    blkT m c t (ix2 p (0 : Fin 1)) = Cert.Spec.tgtWord (argT m c) r := by
  rw [blkT_apply, arrT_apply]
  congr 1
  exact Fin.ext hr.symm

/-- THE INVARIANT: after point `n`, row `p` of the columns holds the running values of the first `1280·(n % 25 + 1)`
    logits of token row `2048·(n / 25) + p`. -/
theorem inv (c : Dev nD) (hH : Cert.Spec.Finite (argH m c)) (hT : Cert.Spec.InRange (argT m c)) (hW : Cert.Spec.Finite (argW m c)) :
    ∀ (n : ℕ) (hn : n < cfg0.N) (p : Fin 2048) (r : Fin 8192), r.val = 2048 * (n / 25) + p.val →
      RowAt (Cert.Spec.z (argH m c) (argW m c) r) (Cert.Spec.tgtN (argT m c) r) (cols m c n hn) p (1280 * (n % 25 + 1)) := by
  intro n
  induction n with
  | zero =>
    intro hn p r hr
    have e := cols_A m c ⟨0, hn⟩ rfl (by show ¬(0 % 25 = 24); decide)
    rw [coord1] at e
    show RowAt _ _ (cols m c (⟨0, hn⟩ : Fin cfg0.N).val _) p _
    rw [e]
    exact point_row _ _ 0 (by norm_num) _ _ _ _ p (fun a => hlog_at c hH hW ⟨0, hn⟩ p r hr a)
      (by rw [htg_at c ⟨0, hn⟩ p r hr, safeWord_eq]; rfl) (Cert.Spec.tgtN_lt hT r) (init_row _ _ p)
  | succ k ih =>
    intro hn p r hr
    have hN : cfg0.N = 100 := N_0
    by_cases h0 : (k + 1) % 25 = 0
    · have h1 : ¬(k + 1) % 25 = 24 := by omega
      have e := cols_A m c ⟨k + 1, hn⟩ h0 h1
      rw [coord1] at e
      show RowAt _ _ (cols m c (⟨k + 1, hn⟩ : Fin cfg0.N).val _) p _
      rw [e]
      have hp := point_row (Cert.Spec.z (argH m c) (argW m c) r) (Cert.Spec.tgtN (argT m c) r) ((k + 1) % 25) (Nat.mod_lt _ (by norm_num))
        (blkH m c ⟨k + 1, hn⟩) (blkW m c ⟨k + 1, hn⟩) (blkT m c ⟨k + 1, hn⟩) init p
        (fun a => hlog_at c hH hW ⟨k + 1, hn⟩ p r hr a)
        (by rw [htg_at c ⟨k + 1, hn⟩ p r hr, safeWord_eq]; rfl) (Cert.Spec.tgtN_lt hT r)
        (by rw [h0]; exact init_row _ _ p)
      exact hp
    · have hprev := ih (Nat.lt_of_succ_lt hn) p r (by omega)
      have hk : 1280 * (k % 25 + 1) = 1280 * ((k + 1) % 25) := by omega
      rw [hk] at hprev
      have e : cols m c (⟨k + 1, hn⟩ : Fin cfg0.N).val (⟨k + 1, hn⟩ : Fin cfg0.N).isLt
          = point (BitVec.ofNat 32 ((k + 1) % 25)) (blkH m c ⟨k + 1, hn⟩) (blkW m c ⟨k + 1, hn⟩) (blkT m c ⟨k + 1, hn⟩)
              (cols m c k (Nat.lt_of_succ_lt hn)) := by
        by_cases h1 : (k + 1) % 25 = 24
        · have e := cols_C m c ⟨k + 1, hn⟩ h0 h1
          rw [coord1] at e
          exact e
        · have e := cols_B m c ⟨k + 1, hn⟩ h0 h1
          rw [coord1] at e
          exact e
      show RowAt _ _ (cols m c (⟨k + 1, hn⟩ : Fin cfg0.N).val _) p _
      rw [e]
      exact point_row (Cert.Spec.z (argH m c) (argW m c) r) (Cert.Spec.tgtN (argT m c) r) ((k + 1) % 25) (Nat.mod_lt _ (by norm_num))
        (blkH m c ⟨k + 1, hn⟩) (blkW m c ⟨k + 1, hn⟩) (blkT m c ⟨k + 1, hn⟩) _ p
        (fun a => hlog_at c hH hW ⟨k + 1, hn⟩ p r hr a)
        (by rw [htg_at c ⟨k + 1, hn⟩ p r hr, safeWord_eq]; rfl) (Cert.Spec.tgtN_lt hT r) hprev

/-- The output block written at the last vocabulary block of a token block: at row `p` the loss of token row `r`. -/
theorem out_row (c : Dev nD) (hH : Cert.Spec.Finite (argH m c)) (hT : Cert.Spec.InRange (argT m c)) (hW : Cert.Spec.Finite (argW m c))
    (t : Fin cfg0.N) (h1 : t.val % 25 = 24) (p : Fin 2048) (r : Fin 8192) (hr : r.val = 2048 * (t.val / 25) + p.val) :
    ((outsAt0 m c t.val t.isLt).1 (ix2 p (0 : Fin 1)) : EReal) = Cert.Spec.rowLoss (argH m c) (argT m c) (argW m c) r := by
  rw [out_C m c t (by omega) h1, finish_apply, htg_at c t p r hr]
  obtain ⟨e1, e2, e3⟩ := inv c hH hT hW t.val t.isLt p r hr
  rw [e1, e2, e3, h1]
  rfl

/-- The same at any index of the output block. -/
theorem out_at (c : Dev nD) (hH : Cert.Spec.Finite (argH m c)) (hT : Cert.Spec.InRange (argT m c)) (hW : Cert.Spec.Finite (argW m c))
    (t : Fin cfg0.N) (h1 : t.val % 25 = 24) (y : S2048x1.Idx) (r : Fin 8192) (hr : r.val = 2048 * (t.val / 25) + (y 0).val) :
    ((outsAt0 m c t.val t.isLt).1 y : EReal) = Cert.Spec.rowLoss (argH m c) (argT m c) (argW m c) r := by
  have hy : y = ix2 (y 0) (0 : Fin 1) := by
    funext a
    match a with
    | ⟨0, _⟩ => rfl
    | ⟨1, _⟩ => exact Fin.ext (by show (y 1).val = 0; have : (y 1).val < 1 := (y 1).isLt; omega)
  rw [hy]
  exact out_row c hH hT hW t h1 (y 0) r hr

end Cert.KernelIdeal.Inv

end
-- ==== Proof.KTail.lean ====
/- The kernel's closing host operations: the number of valid rows as a float sum of the validity mask, the sum of the
   per-row output, the quotient by the count clamped below by one, and the guard for an empty count. -/
import proofs.«419131_j19765439496671_3_alg».proof.Proof.Gen.KernelIdeal
import proofs.«419131_j19765439496671_3_alg».proof.Proof.RowMath
import Idealize.ShloMosaic.Lib.ValueIdx
import Idealize.ShloMosaic.Lib.ValueIdxRank1
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.KTail

open Cert.KernelIdeal Cert.KernelIdeal.Facts₀ Cert.KernelIdeal.Facts
open Idealize.ShloMosaic Idealize.ShloMosaic.TcCoe Idealize.ShloMosaic.ValueIdx

/-- The host operations after the call, as one function of the validity mask and the call's output array. -/
def tailFn {F : FTy → Type} [FloatOps F] (vmask : IVec S8192 1) (out : Vec F S8192x1 .f32) : FVec F S_ .f32 :=
  select
    (cmpf .ogt (Host.reduceAdd (uitofp (F := F) .f32 vmask) (constant S_ .f32 0#32) reducesTo_S8192_S_d0 h_S_) (constant S_ .f32 0#32))
    (Host.divf
      (Host.reduceAdd (shapeCast S8192 out shapeCasts_S8192x1_S8192) (constant S_ .f32 0#32) reducesTo_S8192_S_d0 h_S_)
      (maximumf (Host.reduceAdd (uitofp (F := F) .f32 vmask) (constant S_ .f32 0#32) reducesTo_S8192_S_d0 h_S_) (constant S_ .f32 1065353216#32)))
    (id (constant S_ .f32 0#32))

/-- The number of rows the mask keeps. -/
def maskCount (vmask : IVec S8192 1) : ℕ := (Finset.univ.filter fun r : Fin 8192 => vmask (ix1 r) = 1#1).card

/-- A one-bit word read unsigned is 1 when set and 0 otherwise. -/
theorem toNat_bit (b : BitVec 1) : b.toNat = if b = 1#1 then 1 else 0 := by
  rcases BitVec.eq_zero_or_eq_one b with rfl | rfl <;> rfl

/-- The bits of a mask, read as extended reals, sum to the number of set bits. -/
theorem sum_bits_eq_card {n : ℕ} (b : Fin n → BitVec 1) :
    ∑ r : Fin n, ((((b r).toNat : ℕ) : ℝ) : EReal) = ((((Finset.univ.filter fun r => b r = 1#1).card : ℕ) : ℝ) : EReal) := by
  rw [← Cert.RowMath.coe_sum, ← Nat.cast_sum, Finset.card_filter]
  congr 2
  exact Finset.sum_congr rfl fun r _ => toNat_bit (b r)

/-- The host's float sum from zero of a vector over its one axis is the sum over the row numbers. -/
theorem reduceAdd_rows (y : FVec Ideal S8192 .f32) (i : S_.Idx) :
    Host.reduceAdd y (constant S_ .f32 0#32) reducesTo_S8192_S_d0 h_S_ i = ∑ r : Fin 8192, (y (ix1 r) : EReal) := by
  simp only [Host.reduceAdd, Ideal.hostReduceAdd_def]
  rw [Ideal.hostReduceAdd_total reducesTo_S8192_S_d0 (fun b => b.elim0) y _ i]
  show Ideal.ofBits .f32 0x00000000#32 + _ = _
  rw [Ideal.ofBits_zero_f32, zero_add]
  exact (Equiv.sum_comp idxEquiv1.symm fun j => (y j : EReal)).symm

/-- The float count of the mask is the number of kept rows. -/
theorem count_eq (vmask : IVec S8192 1) (i : S_.Idx) :
    Host.reduceAdd (uitofp (F := Ideal) .f32 vmask) (constant S_ .f32 0#32) reducesTo_S8192_S_d0 h_S_ i
      = (((maskCount vmask : ℕ) : ℝ) : EReal) := by
  rw [reduceAdd_rows]
  exact sum_bits_eq_card fun r => vmask (ix1 r)

/-- The column array reshaped to a vector, summed from zero, is the sum of the column over the rows. -/
theorem out_sum_eq (out : Vec Ideal S8192x1 .f32) (i : S_.Idx) :
    (Host.reduceAdd (shapeCast S8192 out shapeCasts_S8192x1_S8192) (constant S_ .f32 0#32) reducesTo_S8192_S_d0 h_S_ : FVec Ideal S_ .f32) i
      = ∑ r : Fin 8192, (out (ix2 r (0 : Fin 1)) : EReal) := by
  rw [reduceAdd_rows]
  refine Finset.sum_congr rfl fun r _ => ?_
  exact shapeCast_apply out shapeCasts_S8192x1_S8192 (ix1 r) (ix2 r (0 : Fin 1))
    (by rewrite [Shape.rowMajor_val_two, Shape.rowMajor_val_one]; show r.val * 1 + 0 = r.val; omega)

/-- At the extended reals: zero without a kept row, else the sum of the output over the rows divided by the number
    of kept rows. -/
theorem tailFn_ideal (vmask : IVec S8192 1) (out : Vec Ideal S8192x1 .f32) :
    tailFn (F := Ideal) vmask out
      = fun _ => if 0 < maskCount vmask
          then Ideal.div (∑ r : Fin 8192, (out (ix2 r (0 : Fin 1)) : EReal)) (((max (maskCount vmask) 1 : ℕ) : ℝ) : EReal)
          else 0 := by
  funext i
  show Scalar.select
      (FloatOps.cmpf .ogt (Host.reduceAdd (uitofp (F := Ideal) .f32 vmask) (constant S_ .f32 0#32) reducesTo_S8192_S_d0 h_S_ i)
        (Ideal.ofBits .f32 0x00000000#32))
      (FloatOps.hostDivf
        (Host.reduceAdd (shapeCast S8192 out shapeCasts_S8192x1_S8192) (constant S_ .f32 0#32) reducesTo_S8192_S_d0 h_S_ i)
        (FloatOps.maximumf (Host.reduceAdd (uitofp (F := Ideal) .f32 vmask) (constant S_ .f32 0#32) reducesTo_S8192_S_d0 h_S_ i)
          (Ideal.ofBits .f32 0x3F800000#32)))
      (Ideal.ofBits .f32 0x00000000#32) = _
  rw [count_eq, out_sum_eq, Ideal.ofBits_zero_f32, Ideal.ofBits_one_f32, Ideal.hostDivf_def, Ideal.maximumf_def]
  have hmax : max ((((maskCount vmask : ℕ) : ℝ) : EReal)) 1 = ((((max (maskCount vmask) 1 : ℕ)) : ℝ) : EReal) := by
    rw [Nat.cast_max, Nat.cast_one, EReal.coe_strictMono.monotone.map_max, EReal.coe_one]
  rw [hmax]
  show Scalar.select (Ideal.cmp .ogt _ 0) _ _ = _
  by_cases hpos : 0 < maskCount vmask
  · have hbit : Ideal.cmp .ogt ((((maskCount vmask : ℕ) : ℝ) : EReal)) 0 = 1#1 := by
      have : (0 : EReal) < (((maskCount vmask : ℕ) : ℝ) : EReal) := EReal.coe_pos.2 (Nat.cast_pos.2 hpos)
      show BitVec.ofBool (decide ((0 : EReal) < (((maskCount vmask : ℕ) : ℝ) : EReal))) = 1#1
      rw [decide_eq_true this]; rfl
    rw [hbit, select_one, if_pos hpos]
  · have hbit : Ideal.cmp .ogt ((((maskCount vmask : ℕ) : ℝ) : EReal)) 0 = 0#1 := by
      have : ¬ (0 : EReal) < (((maskCount vmask : ℕ) : ℝ) : EReal) := fun h => hpos (Nat.cast_pos.1 (EReal.coe_pos.1 h))
      show BitVec.ofBool (decide ((0 : EReal) < (((maskCount vmask : ℕ) : ℝ) : EReal))) = 0#1
      rw [decide_eq_false this]; rfl
    rw [hbit, select_zero, if_neg hpos]

end Cert.KernelIdeal.KTail

end
-- ==== Proof.KernelValue.lean ====
/- The kernel's result as a function of the argument arrays.

   The output window is written back at the last vocabulary block of each token block, and the block written there is
   the rows' losses (`Inv.out_row`); the four blocks cover the [8192, 1] output array, so after the call row `r` of it
   holds `Spec.rowLoss r`.  The host operations after the call turn it into the mean over the valid rows (`KTail`), the
   validity mask being "target word ≠ −100" of the reshaped targets. -/
import proofs.«419131_j19765439496671_3_alg».proof.Proof.Invariant
import proofs.«419131_j19765439496671_3_alg».proof.Proof.KTail
import Idealize.ShloMosaic.Lib.Pipeline.Value
import Idealize.ShloMosaic.Lib.StableHlo.Run
import Idealize.ShloMosaic.Lib.StableHlo.Predicate

set_option maxRecDepth 16384

noncomputable section

namespace Cert.KernelIdeal.KVal

open Cert.KernelIdeal Cert.KernelIdeal.Gen Cert.KernelIdeal.KArr Cert.KernelIdeal.Inv Cert.KernelIdeal.KTail
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array after the call: row `r` holds the loss of token row `r`. -/
def G (c : Dev nD) : Vec Ideal S8192x1 .f32 :=
  fun j => Cert.Spec.rowLoss (argH m c) (argT m c) (argW m c) (⟨(j 0).val, idx2_lt0 j⟩ : Fin 8192)

variable {m}

/-- What the point at the last vocabulary block of a token block writes back is that token block of `G`. -/
theorem flushed_eq (c : Dev nD) (hH : Cert.Spec.Finite (argH m c)) (hT : Cert.Spec.InRange (argT m c)) (hW : Cert.Spec.Finite (argW m c))
    (t : Fin cfg0.N) (hf : (cfg0.win 3).flush t = true) :
    (dats m 0 c).flushed 3 t = ((cfg0.win 3).blk t).view.read (Elt Ideal) (G m c) := by
  have h1 : t.val % 25 = 24 := (flush0_3 t).mp hf
  obtain ⟨-, -, -, ⟨i0, i1⟩⟩ := idx_facts t
  show (cfg0.win 3).cut (grid0.coords t) ((dats m 0 c).after 3 t) = _
  rw [after0_3]
  funext j
  show (outsAt0 m c t.val t.isLt).1 j = G m c (((cfg0.win 3).blk t).view.emb j)
  have hp : (j 0).val < 2048 := (j 0).isLt
  have hN : cfg0.N = 100 := N_0
  have htl := t.isLt
  refine (out_at c hH hT hW t h1 j ⟨2048 * (t.val / 25) + (j 0).val, by omega⟩ rfl).trans ?_
  unfold G
  congr 1
  apply Fin.ext
  show 2048 * (t.val / 25) + (j 0).val = win0_3.index t 0 * 2048 + 1 * (j 0).val
  rw [i0]; omega

/-- An index of the output array lies in point `t`'s block iff each coordinate lies in the block's range. -/
theorem mem_blk (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v7).slice (win0_3.rect t)).set ↔ _
  rw [View.set_slice_whole, Rect.mem_set_unit]
  exact Iff.rfl

/-- Every row of the output array is written back by the last point of its token block. -/
theorem cover (i : S8192x1.Idx) : ∃ t : Fin cfg0.N, (cfg0.win 3).flush t = true ∧ i ∈ ((cfg0.win 3).blk t).view.set := by
  have hN : cfg0.N = 100 := N_0
  have h0 : (i 0).val < 8192 := idx2_lt0 i
  have h1 : (i 1).val < 1 := (i 1).isLt
  let t : Fin cfg0.N := ⟨25 * ((i 0).val / 2048) + 24, by omega⟩
  obtain ⟨-, -, -, ⟨i0, i1⟩⟩ := idx_facts t
  refine ⟨t, (flush0_3 t).mpr (by show (25 * ((i 0).val / 2048) + 24) % 25 = 24; omega), ?_⟩
  rw [mem_blk]
  have e0 : win0_3.index t 0 = (i 0).val / 2048 := by rw [i0]; show (25 * ((i 0).val / 2048) + 24) / 25 = _; omega
  intro a
  match a with
  | ⟨0, _⟩ => show win0_3.index t 0 * 2048 ≤ (i 0).val ∧ (i 0).val < win0_3.index t 0 * 2048 + 2048; rw [e0]; omega
  | ⟨1, _⟩ => show win0_3.index t 1 * 1 ≤ (i 1).val ∧ (i 1).val < win0_3.index t 1 * 1 + 1; rw [i1]; omega

/-- The output array after the call. -/
theorem final (c : Dev nD) (hH : Cert.Spec.Finite (argH m c)) (hT : Cert.Spec.InRange (argT m c)) (hW : Cert.Spec.Finite (argW m c)) :
    (dats m 0 c).arrAt 3 cfg0.N = G m c :=
  (dats m 0 c).arrAt_eq_of_cover 3 (G m c) (fun t hf => flushed_eq c hH hT hW t hf) cover

/-- The validity mask the host computes before the call keeps row `r` exactly when its target is not −100. -/
theorem mask_apply (c : Dev nD) (r : Fin 8192) :
    ((V m c main_v3 : IVec S8192 1) (ix1 r) = 1#1) ↔ Cert.Spec.tgtWord (argT m c) r ≠ Cert.Spec.ignoreWord := by
  have e : (V m c main_v3 : IVec S8192 1) = cmpi .ne (shapeCast S8192 (argT m c) shapeCasts_S4x2048_S8192)
      (broadcastInDim S8192 ![] bcast_S_S8192 (constantI S_ 32 4294967196#32)) := by
    show StableHlo.after hostOps0 (fun b => m (c, b)) (Proc.devRef .tc main_v3) = _
    after_results; rfl
  rw [e]
  show IntOp.cmpi .ne (shapeCast S8192 (argT m c) shapeCasts_S4x2048_S8192 (ix1 r))
      (broadcastInDim S8192 ![] bcast_S_S8192 (constantI S_ 32 4294967196#32) (ix1 r)) = 1 ↔ _
  rw [StableHlo.Predicate.bcast_scalar _ h_S_, Cert.KernelIdeal.StepIdeal.cmpi_ne_eq_one]
  unfold Cert.Spec.tgtWord
  rw [shapeCast_apply (argT m c) shapeCasts_S4x2048_S8192 (ix1 r)
    (ix2 (⟨r.val / 2048, by have := r.isLt; omega⟩ : Fin 4) (⟨r.val % 2048, Nat.mod_lt _ (by norm_num)⟩ : Fin 2048)) (by
      rewrite [Shape.rowMajor_val_two, Shape.rowMajor_val_one]
      show (r.val / 2048) * 2048 + r.val % 2048 = r.val
      omega)]
  exact Iff.rfl

/-- So the mask keeps as many rows as the specification counts valid. -/
theorem maskCount_eq (c : Dev nD) : maskCount (V m c main_v3 : IVec S8192 1) = Cert.Spec.count (argT m c) := by
  unfold maskCount Cert.Spec.count
  congr 1
  ext r
  simp only [Finset.mem_filter, Finset.mem_univ, true_and]
  exact mask_apply c r

/-- The result buffer after the host operations that follow the call: the closing function of the mask and the
    output array. -/
theorem tail_eq (c : Dev nD) :
    Pipeline.afterTail₀ cfgs (dats m) 0 (V0 m) [hostOps1, hostOps1_1] c main_v15
      = tailFn (F := Ideal) (V m c main_v3) ((dats m 0 c).arrAt 3 cfg0.N) := by
  unfold Pipeline.afterTail₀
  simp only [hostOps1, hostOps1_1, List.flatten_cons, List.flatten_nil, List.append_nil, List.cons_append, List.nil_append]
  after_results
  simp only [StableHlo.TRef.ofBuf, StableHlo.TRef.toBuf, cast_eq]
  have e7 : Pipeline.withArrays (cfgs 0).spec c (V0 m c) (fun w => (dats m 0 c).arrAt w (cfgs 0).N) (Proc.devRef .tc main_v7)
      = (dats m 0 c).arrAt 3 cfg0.N := Pipeline.withArrays_arr spec0 launch0.win.arr_inj c _ _ 3
  have e3 : Pipeline.withArrays (cfgs 0).spec c (V0 m c) (fun w => (dats m 0 c).arrAt w (cfgs 0).N) (Proc.devRef .tc main_v3)
      = V m c main_v3 := Pipeline.withArrays_of_ne _ c (V0 m c) _ main_v3 (by exact (by decide : ∀ w, Pipeline.arrRef spec0 w ≠ main_v3))
  rw [e7, e3]
  unfold tailFn
  rfl

/-- The closing function of the mask and the output array is the specification's mean loss. -/
theorem result_eq (c : Dev nD) (hH : Cert.Spec.Finite (argH m c)) (hT : Cert.Spec.InRange (argT m c)) (hW : Cert.Spec.Finite (argW m c)) :
    tailFn (F := Ideal) (V m c main_v3) ((dats m 0 c).arrAt 3 cfg0.N)
      = fun _ => Cert.Spec.loss (argH m c) (argT m c) (argW m c) := by
  rw [final c hH hT hW, tailFn_ideal, maskCount_eq c]
  have e : ∑ r : Fin 8192, (G m c (ix2 r (0 : Fin 1)) : EReal)
      = ∑ r : Fin 8192, Cert.Spec.rowLoss (argH m c) (argT m c) (argW m c) r :=
    Finset.sum_congr rfl fun r _ => rfl
  rw [e]
  rfl

variable (m) in
/-- THE KERNEL'S RUN, read: the result is the specification's mean loss, the arguments unchanged. -/
theorem run (hpre : ∀ c : Dev nD, Cert.Spec.Finite (argH m c) ∧ Cert.Spec.InRange (argT m c) ∧ Cert.Spec.Finite (argW m c)) :
    θ_run defs (onTc (τ := τ) (main (F := Ideal))) ⟨m, fun _ => 0, ρ⟩ fun r => ∀ c : Dev nD,
      r.2.mem ((c.tc : Thread nD τ).loc main_v15) = (fun _ => Cert.Spec.loss (argH m c) (argT m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans
        ((tail_eq c).trans (result_eq c (hpre c).1 (hpre c).2.1 (hpre c).2.2)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.KVal

end
-- ==== Proof.RefRow.lean ====
/- The reference's per-row loss: the masked negative log-likelihood of token row `r`, read off the reference's
   stages (the contraction, the row maximum, the shifted exponentials' sum and its logarithm, the gather of the target
   column, the negation and the validity mask), is `Spec.rowLoss`. -/
import proofs.«419131_j19765439496671_3_alg».proof.Proof.RefRead
import proofs.«419131_j19765439496671_3_alg».proof.Proof.Spec
import Idealize.ShloMosaic.Lib.ValueIdx
import Idealize.ShloMosaic.Lib.ValueLayout
import Idealize.ShloMosaic.Lib.Affine
import Idealize.ShloMosaic.Lib.Pipeline.Value
import Idealize.ShloMosaic.PureOps.Ideal.Laws

noncomputable section

namespace Cert.ReferenceIdeal.RefRow

open Cert.ReferenceIdeal Cert.ReferenceIdeal.Gen Cert.ReferenceIdeal.ReadP
open Idealize.ShloMosaic Idealize.ShloMosaic.TcCoe Idealize.ShloMosaic.ValueIdx Idealize.ShloMosaic.StableHlo

/-! ## The mathematics of one row

With finite hidden states and weights every logit of row r is a real number, so the row's maximum over the
32000 columns, the sum of the shifted exponentials and the one-pass negative log-likelihood are the running maximum,
running sum and streaming negative log-likelihood of RowMath after the whole row. -/

section Math

open Cert.RowMath

variable (H : Cert.Spec.SH.Idx → EReal) (T : Cert.Spec.ST.Idx → BitVec 32) (W : Cert.Spec.SW.Idx → EReal)

/-- Under finiteness a logit is a real number: a finite sum of products of reals. -/
theorem logitE_real (hH : Cert.Spec.Finite (S := Cert.Spec.SH) H) (hW : Cert.Spec.Finite (S := Cert.Spec.SW) W)
    (r : Fin 8192) (v : Fin 32000) : ∃ x : ℝ, Cert.Spec.logitE H W r v = (x : EReal) := by
  choose a ha using fun d : Fin 2048 =>
    hH (ix3 (⟨r.val / 2048, by have := r.isLt; omega⟩ : Fin 4) (⟨r.val % 2048, Nat.mod_lt _ (by norm_num)⟩ : Fin 2048) d)
  choose b hb using fun d : Fin 2048 => hW (ix2 v d)
  refine ⟨∑ d : Fin 2048, a d * b d, ?_⟩
  unfold Cert.Spec.logitE Cert.Spec.hid
  rw [coe_sum]
  refine Finset.sum_congr rfl fun d _ => ?_
  rw [ha d, hb d, EReal.coe_mul]

/-- The real logit, read back in the extended reals, is the logit. -/
theorem z_coe (hH : Cert.Spec.Finite (S := Cert.Spec.SH) H) (hW : Cert.Spec.Finite (S := Cert.Spec.SW) W)
    (r : Fin 8192) (v : Fin 32000) : ((Cert.Spec.z H W r v.val : ℝ) : EReal) = Cert.Spec.logitE H W r v := by
  obtain ⟨x, hx⟩ := logitE_real H W hH hW r v
  unfold Cert.Spec.z
  rw [dif_pos v.isLt]
  show (((Cert.Spec.logitE H W r v).toReal : ℝ) : EReal) = Cert.Spec.logitE H W r v
  rw [hx, EReal.toReal_coe]

/-- The supremum over the columns, indexed by the finite type, is the running maximum after all of them. -/
theorem sup_eq_runMax (zz : ℕ → ℝ) (n : ℕ) :
    (Finset.univ : Finset (Fin n)).sup (fun k => (zz k.val : EReal)) = runMax zz n := by
  unfold runMax
  apply le_antisymm
  · apply Finset.sup_le
    intro k _
    exact Finset.le_sup (f := fun v => (zz v : EReal)) (Finset.mem_range.2 k.isLt)
  · apply Finset.sup_le
    intro v hv
    exact Finset.le_sup (f := fun k : Fin n => (zz k.val : EReal)) (Finset.mem_univ ⟨v, Finset.mem_range.1 hv⟩)

/-- The row's maximum as the reference takes it: the bottom element against the fold of the maximum over the columns. -/
def rowM (r : Fin 8192) : EReal :=
  max ⊥ ((Finset.univ : Finset (Fin 32000)).fold max ⊥ fun k => Cert.Spec.logitE H W r k)

/-- The row's sum of shifted exponentials as the reference takes it, from the initial value 0. -/
def rowS (r : Fin 8192) : EReal := 0 + ∑ k : Fin 32000, Ideal.exp (Cert.Spec.logitE H W r k - rowM H W r)

/-- The row's log-softmax at column v. -/
def rowLogp (r : Fin 8192) (v : Fin 32000) : EReal := (Cert.Spec.logitE H W r v - rowM H W r) - Ideal.log (rowS H W r)

theorem rowM_eq (hH : Cert.Spec.Finite (S := Cert.Spec.SH) H) (hW : Cert.Spec.Finite (S := Cert.Spec.SW) W) (r : Fin 8192) :
    rowM H W r = runMax (Cert.Spec.z H W r) 32000 := by
  unfold rowM
  rw [fold_max_eq_sup, max_eq_right bot_le, ← sup_eq_runMax]
  refine Finset.sup_congr rfl fun k _ => ?_
  exact (z_coe H W hH hW r k).symm

theorem rowS_eq (hH : Cert.Spec.Finite (S := Cert.Spec.SH) H) (hW : Cert.Spec.Finite (S := Cert.Spec.SW) W) (r : Fin 8192) :
    rowS H W r = runSum (Cert.Spec.z H W r) 32000 := by
  unfold rowS
  rw [zero_add, rowM_eq H W hH hW r]
  unfold runSum
  rw [Finset.sum_range (fun v => Ideal.exp (((Cert.Spec.z H W r v : ℝ) : EReal) - runMax (Cert.Spec.z H W r) 32000))]
  refine Finset.sum_congr rfl fun k _ => ?_
  rw [z_coe H W hH hW r k]

/-- The negated log-softmax at the target's column is the row's negative log-likelihood. -/
theorem neg_rowLogp_eq_nll (hH : Cert.Spec.Finite (S := Cert.Spec.SH) H) (hW : Cert.Spec.Finite (S := Cert.Spec.SW) W)
    (r : Fin 8192) (t : Fin 32000) (ht : t.val = Cert.Spec.tgtN T r) :
    -(rowLogp H W r t) = Cert.Spec.nll H T W r := by
  unfold rowLogp
  rw [rowS_eq H W hH hW r, rowM_eq H W hH hW r, ← z_coe H W hH hW r t]
  unfold Cert.Spec.nll
  rw [← ht, runPick_total (Cert.Spec.z H W r) t.isLt]
  exact (nll_eq (Cert.Spec.z H W r) (by norm_num) (Cert.Spec.z H W r t.val)).symm

end Math

/-! ## The column word

The reference replaces the ignore value by column 0, moves a negative word up by the vocabulary's size, and gathers
at the result read signed and clamped into the vocabulary, under a mask that tests 0 ≤ word ≤ 31999. For a target
that is the ignore value or a column the word is the target's column itself and the mask is on. -/

/-- The target with the ignore value replaced by 0. -/
def safeWord (w : BitVec 32) : BitVec 32 := Scalar.select (IntOp.cmpi .ne w Cert.Spec.ignoreWord) w 0#32

/-- The word the gather reads: a negative safe word moved up by 32000. -/
def colWord (w : BitVec 32) : BitVec 32 :=
  Scalar.select (IntOp.cmpi .slt (safeWord w) 0#32) (IntOp.addi (safeWord w) 32000#32) (safeWord w)

theorem colWord_facts (w : BitVec 32) (hw : w = Cert.Spec.ignoreWord ∨ w.toNat < 32000) :
    IntOp.andi (IntOp.andi (IntOp.cmpi .sge (colWord w) 0#32) (IntOp.cmpi .sle (colWord w) 31999#32)) 1#1 = 1#1
      ∧ min (colWord w).toInt.toNat 31999 = (if w = Cert.Spec.ignoreWord then 0 else w.toNat) := by
  by_cases h : w = Cert.Spec.ignoreWord
  · subst h
    refine ⟨by decide, by decide⟩
  · have hlt : w.toNat < 32000 := hw.resolve_left h
    have hne : IntOp.cmpi .ne w Cert.Spec.ignoreWord = 1#1 := IntOp.cmpi_ne.mpr h
    have hs : safeWord w = w := by unfold safeWord; rw [hne]; exact select_one _ _
    have hint : w.toInt = (w.toNat : Int) := BitVec.toInt_eq_toNat_of_lt (by omega)
    have hnl : IntOp.cmpi .slt w 0#32 = 0#1 := by
      apply eq_zero_of_ne_one
      rw [IntOp.cmpi_slt, hint]
      show ¬((w.toNat : Int) < 0)
      omega
    have hc : colWord w = w := by unfold colWord; rw [hs, hnl]; exact select_zero _ _
    rw [hc, if_neg h]
    refine ⟨?_, ?_⟩
    · have h1 : IntOp.cmpi .sge w 0#32 = 1#1 := by
        rw [IntOp.cmpi_sge, hint]; show (0 : Int) ≤ (w.toNat : Int); omega
      have h2 : IntOp.cmpi .sle w 31999#32 = 1#1 := by
        rw [IntOp.cmpi_sle, hint]; show (w.toNat : Int) ≤ 31999; omega
      rw [h1, h2]; decide
    · rw [hint, Int.toNat_natCast]; omega

/-! ## The row maximum, the mask's conjunction over its size-one axis, and the gather, each at a row -/

theorem reduces_cols : S8192x32000.Reduces [1] S8192 := by decide
theorem reduces_unit : S8192x1x1.Reduces [2] S8192x1 := by decide

/-- Row r with column k put back on the dropped axis is (r, k). -/
theorem lift_row (r : Fin 8192) (k : Fin (S8192x32000.size 1)) :
    reduces_cols.lift (ix1 r) k = ix2 r (⟨k.val, k.isLt⟩ : Fin 32000) := by
  funext c; apply Fin.ext
  match c with
  | ⟨0, _⟩ => rfl
  | ⟨1, _⟩ => rfl

/-- The row maximum is the fold of the maximum over the row's columns from the initial value. -/
theorem rowmax_apply (y : FVec Ideal S8192x32000 .f32) (init : FVec Ideal S_ .f32) (r : Fin 8192) :
    Host.reduce FloatOps.maximumf y init reducesTo_S8192x32000_S8192_d1 h_S_ (ix1 r)
      = (Finset.univ : Finset (Fin 32000)).fold max (init (Shape.Idx.first h_S_)) (fun k => y (ix2 r k)) := by
  rw [Host.reduce_eq_fold_single FloatOps.maximumf y init reducesTo_S8192x32000_S8192_d1 reduces_cols h_S_]
  have hf : (y ∘ reduces_cols.lift (ix1 r)) = fun k : Fin 32000 => y (ix2 r k) := funext fun k => congrArg y (lift_row r k)
  exact congrArg (fun f => Finset.fold max (init (Shape.Idx.first h_S_)) f (Finset.univ : Finset (Fin 32000))) hf

theorem lift_unit (r : Fin 8192) (k : Fin (S8192x1x1.size 2)) :
    reduces_unit.lift (ix2 r (0 : Fin 1)) k = ix3 r (0 : Fin 1) (0 : Fin 1) := by
  funext c; apply Fin.ext
  match c with
  | ⟨0, _⟩ => rfl
  | ⟨1, _⟩ => rfl
  | ⟨2, _⟩ => (show k.val = 0; have hk : k.val < 1 := k.isLt; omega)

/-- The conjunction over the size-one axis is the one element's bit and the initial bit. -/
theorem mask_apply (p : IVec S8192x1x1 1) (init : IVec S_ 1) (r : Fin 8192) :
    Host.reduce IntOp.andi p init reducesTo_S8192x1x1_S8192x1_d2 h_S_ (ix2 r (0 : Fin 1))
      = IntOp.andi (p (ix3 r (0 : Fin 1) (0 : Fin 1))) (init (Shape.Idx.first h_S_)) := by
  rw [Host.reduce_eq_fold_single IntOp.andi p init reducesTo_S8192x1x1_S8192x1_d2 reduces_unit h_S_]
  have hf : (p ∘ reduces_unit.lift (ix2 r (0 : Fin 1))) = fun _ : Fin 1 => p (ix3 r (0 : Fin 1) (0 : Fin 1)) :=
    funext fun k => congrArg p (lift_unit r k)
  refine (congrArg (fun f => Finset.fold IntOp.andi (init (Shape.Idx.first h_S_)) f (Finset.univ : Finset (Fin 1))) hf).trans ?_
  rw [Finset.univ_unique, Finset.fold_singleton]

/-- The gather at row r: the operand at row r (the batching axis) and at the column the start index names, read
    signed and clamped into the vocabulary. -/
theorem gather_row_apply (y : FVec Ideal S8192x32000 .f32) (idx : IVec S8192x1x1 32) (r : Fin 8192) :
    Host.gather gather_S8192x32000_S8192x1x1_S8192x1_n_1_0_0_1_2_11 y idx (ix2 r (0 : Fin 1))
      = y (ix2 r (⟨min (idx (ix3 r (0 : Fin 1) (0 : Fin 1))).toInt.toNat 31999, by omega⟩ : Fin 32000)) := by
  unfold Host.gather
  refine congrArg y ?_
  funext a
  refine Fin.ext ?_
  match a with
  | ⟨0, _⟩ =>
    show gather_S8192x32000_S8192x1x1_S8192x1_n_1_0_0_1_2_11.start (ix2 r (0 : Fin 1)) idx 0
        + gather_S8192x32000_S8192x1x1_S8192x1_n_1_0_0_1_2_11.batchCoord (ix2 r (0 : Fin 1)) 0
        + gather_S8192x32000_S8192x1x1_S8192x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x32000_S8192x1x1_S8192x1_n_1_0_0_1_2_11.operandBatchingDims from List.mem_singleton.mpr rfl)]
    rfl
  | ⟨1, _⟩ =>
    show gather_S8192x32000_S8192x1x1_S8192x1_n_1_0_0_1_2_11.start (ix2 r (0 : Fin 1)) idx 1
        + gather_S8192x32000_S8192x1x1_S8192x1_n_1_0_0_1_2_11.batchCoord (ix2 r (0 : Fin 1)) 1
        + gather_S8192x32000_S8192x1x1_S8192x1_n_1_0_0_1_2_11.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32000_S8192x1x1_S8192x1_n_1_0_0_1_2_11.startIndexMap from List.mem_singleton.mpr rfl)]
    have hsi : gather_S8192x32000_S8192x1x1_S8192x1_n_1_0_0_1_2_11.siIdx (ix2 r (0 : Fin 1))
        ⟨List.idxOf (1 : Fin 2) gather_S8192x32000_S8192x1x1_S8192x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The reference's stages at token row r -/

section Stages

variable (x0 : (⟨S4x2048x2048, .f32⟩ : BufTy).Contents (Elt Ideal)) (x1 : (⟨S4x2048, .i32⟩ : BufTy).Contents (Elt Ideal))
  (x2 : (⟨S32000x2048, .f32⟩ : BufTy).Contents (Elt Ideal)) (r : Fin 8192)

/-- The negative-infinity word is the bottom element. -/
theorem ofBits_neg_inf : Ideal.ofBits .f32 0xFF800000#32 = (⊥ : EReal) := by
  simp [Ideal.ofBits, Ideal.ieee]

/-- The flattened targets at row r: the target word of the row. -/
theorem tgt_apply : val_main_v1 (F := Ideal) x1 (ix1 r) = Cert.Spec.tgtWord x1 r := by
  rw [val_main_v1_apply]
  unfold Cert.Spec.tgtWord
  refine congrArg x1 ?_
  funext a; refine Fin.ext ?_
  match a with
  | ⟨0, _⟩ => rfl
  | ⟨1, _⟩ => rfl

/-- The validity bit of row r. -/
theorem valid_apply :
    val_main_v3 (F := Ideal) x1 (ix1 r) = IntOp.cmpi .ne (Cert.Spec.tgtWord x1 r) Cert.Spec.ignoreWord := by
  rw [val_main_v3_apply, tgt_apply, val_main_v2_apply, val_main_c_apply]

/-- The safe target of row r. -/
theorem safe_apply : val_main_v4 (F := Ideal) x1 (ix1 r) = safeWord (Cert.Spec.tgtWord x1 r) := by
  rw [val_main_v4_apply, valid_apply, tgt_apply, val_main_call0_v1_apply, val_main_call0_v0_apply, val_main_c_0_apply]
  rfl

theorem safe_col_apply : val_main_v7 (F := Ideal) x1 (ix2 r (0 : Fin 1)) = safeWord (Cert.Spec.tgtWord x1 r) := by
  rw [val_main_v7_apply]
  refine Eq.trans (congrArg (val_main_v4 (F := Ideal) x1) ?_) (safe_apply x1 r)
  funext a; refine Fin.ext ?_
  match a with
  | ⟨0, _⟩ => rfl

/-- The normalised column word of row r. -/
theorem col_apply : val_main_call2_v4 (F := Ideal) x1 (ix2 r (0 : Fin 1)) = colWord (Cert.Spec.tgtWord x1 r) := by
  rw [val_main_call2_v4_apply, val_main_call2_v1_apply, val_main_call2_v3_apply, safe_col_apply, val_main_call2_v0_apply,
    val_main_call2_c_apply, val_main_call2_v2_apply, val_main_call2_c_0_apply]
  rfl

theorem col3_apply :
    val_main_call2_v5 (F := Ideal) x1 (ix3 r (0 : Fin 1) (0 : Fin 1)) = colWord (Cert.Spec.tgtWord x1 r) := by
  rw [val_main_call2_v5_apply]
  refine Eq.trans (congrArg (val_main_call2_v4 (F := Ideal) x1) ?_) (col_apply x1 r)
  funext a; refine Fin.ext ?_
  match a with
  | ⟨0, _⟩ => (show ((r.val * 1 + 0) * 1 + 0) / 1 = r.val; omega)
  | ⟨1, _⟩ => rfl

/-- The in-bounds mask of row r. -/
theorem mask_row :
    val_main_call2_v12 (F := Ideal) x1 (ix2 r (0 : Fin 1))
      = IntOp.andi (IntOp.andi (IntOp.cmpi .sge (colWord (Cert.Spec.tgtWord x1 r)) 0#32)
          (IntOp.cmpi .sle (colWord (Cert.Spec.tgtWord x1 r)) 31999#32)) 1#1 := by
  unfold val_main_call2_v12
  refine (mask_apply (val_main_call2_v11 (F := Ideal) x1) (val_main_call2_c_3 (F := Ideal)) r).trans ?_
  rw [val_main_call2_v11_apply, val_main_call2_v7_apply, val_main_call2_v10_apply, col3_apply, val_main_call2_v6_apply,
    val_main_call2_c_2_apply, val_main_call2_v9_apply, val_main_call2_v8_apply, val_main_call2_c_1_apply, val_main_call2_c_3_apply]

/-- The contraction at (r, v) is the logit. -/
theorem logit_apply (v : Fin 32000) :
    (val_main_v5 (F := Ideal) x0 x2 (ix2 r v) : EReal) = Cert.Spec.logitE x0 x2 r v := by
  rw [val_main_v5_apply]
  unfold Cert.Spec.logitE Cert.Spec.hid
  refine Finset.sum_congr rfl fun k _ => ?_
  rw [val_main_v0_apply]
  have e0 : idx_main_v0 (lidx_main_v5 (ix2 r v) k)
      = ix3 (⟨r.val / 2048, by have := r.isLt; omega⟩ : Fin 4) (⟨r.val % 2048, Nat.mod_lt _ (by norm_num)⟩ : Fin 2048) k := by
    funext a; refine Fin.ext ?_
    have hr := r.isLt
    have hk := k.isLt
    match a with
    | ⟨0, _⟩ => (show (r.val * 2048 + k.val) / 4194304 = r.val / 2048; omega)
    | ⟨1, _⟩ => (show (r.val * 2048 + k.val) / 2048 % 2048 = r.val % 2048; omega)
    | ⟨2, _⟩ => (show (r.val * 2048 + k.val) % 2048 = k.val; omega)
  have e2 : ridx_main_v5 (ix2 r v) k = ix2 v k := by
    funext a; refine Fin.ext ?_
    match a with
    | ⟨0, _⟩ => rfl
    | ⟨1, _⟩ => rfl
  rw [e0, e2]

/-- The row maximum of the reference. -/
theorem max_apply : (val_main_call1_v2 (F := Ideal) x0 x2 (ix1 r) : EReal) = rowM x0 x2 r := by
  rw [val_main_call1_v2_apply, val_main_call1_v1_apply, val_main_call1_cst_0_apply]
  unfold val_main_call1_v0
  rw [rowmax_apply (val_main_v5 (F := Ideal) x0 x2) (val_main_call1_cst (F := Ideal)) r, val_main_call1_cst_apply]
  simp only [Ideal.ofBits_def, Ideal.maximumf_def, ofBits_neg_inf]
  unfold rowM
  refine congrArg (max ⊥) ?_
  exact congrArg (fun f => Finset.fold max (⊥ : EReal) f (Finset.univ : Finset (Fin 32000)))
    (funext fun k => logit_apply x0 x2 r k)

/-- The shifted logit at (r, v). -/
theorem shifted_apply (v : Fin 32000) :
    (val_main_call1_v5 (F := Ideal) x0 x2 (ix2 r v) : EReal) = Cert.Spec.logitE x0 x2 r v - rowM x0 x2 r := by
  rw [val_main_call1_v5_apply, logit_apply, val_main_call1_v4_apply, val_main_call1_v3_apply]
  have e : idx_main_call1_v3 (idx_main_call1_v4 (ix2 r v)) = ix1 r := by
    funext a; refine Fin.ext ?_
    match a with
    | ⟨0, _⟩ => rfl
  rw [e, max_apply]
  rfl

/-- The sum of the shifted exponentials of row r. -/
theorem sum_apply : (val_main_call1_v7 (F := Ideal) x0 x2 (ix1 r) : EReal) = rowS x0 x2 r := by
  rw [val_main_call1_v7_apply, val_main_call1_cst_1_apply]
  unfold rowS
  simp only [Ideal.ofBits_def, Ideal.ofBits_zero_f32]
  refine congrArg (0 + ·) (Finset.sum_congr rfl fun k _ => ?_)
  rw [val_main_call1_v6_apply]
  have e : idx_main_call1_v7 (ix1 r) k = ix2 r k := by
    funext a; refine Fin.ext ?_
    match a with
    | ⟨0, _⟩ => rfl
    | ⟨1, _⟩ => rfl
  rw [e, shifted_apply]
  rfl

/-- The log-softmax at (r, v). -/
theorem logp_apply (v : Fin 32000) : (val_main_v6 (F := Ideal) x0 x2 (ix2 r v) : EReal) = rowLogp x0 x2 r v := by
  rw [val_main_v6_apply, shifted_apply, val_main_call1_v10_apply, val_main_call1_v9_apply, val_main_call1_v8_apply]
  have e : idx_main_call1_v8 (idx_main_call1_v10 (ix2 r v)) = ix1 r := by
    funext a; refine Fin.ext ?_
    match a with
    | ⟨0, _⟩ => rfl
  rw [e, sum_apply]
  unfold rowLogp
  simp only [Ideal.subf_def, Ideal.hostUnary_log_def]

/-- The gathered element of row r. -/
theorem gathered_apply :
    (val_main_call2_v13 (F := Ideal) x0 x1 x2 (ix2 r (0 : Fin 1)) : EReal)
      = rowLogp x0 x2 r (⟨min (colWord (Cert.Spec.tgtWord x1 r)).toInt.toNat 31999, by omega⟩ : Fin 32000) := by
  unfold val_main_call2_v13
  rw [gather_row_apply (val_main_v6 (F := Ideal) x0 x2) (val_main_call2_v5 (F := Ideal) x1) r]
  simp only [col3_apply]
  exact logp_apply x0 x2 r _

end Stages

/-- Stage 13 of the reference (the masked negated gathered log-softmax) at token row r is the row's loss. -/
theorem row_value (x0 : (⟨S4x2048x2048, .f32⟩ : BufTy).Contents (Elt Ideal)) (x1 : (⟨S4x2048, .i32⟩ : BufTy).Contents (Elt Ideal)) (x2 : (⟨S32000x2048, .f32⟩ : BufTy).Contents (Elt Ideal))
    (h0 : Cert.Spec.Finite (S := Cert.Spec.SH) x0) (h1 : Cert.Spec.InRange x1) (h2 : Cert.Spec.Finite (S := Cert.Spec.SW) x2)
    (r : Fin 8192) :
    (val_main_v13 (F := Ideal) x0 x1 x2 (ix1 r) : EReal) = Cert.Spec.rowLoss x0 x1 x2 r := by
  have hw : Cert.Spec.tgtWord x1 r = Cert.Spec.ignoreWord ∨ (Cert.Spec.tgtWord x1 r).toNat < 32000 := h1 _
  obtain ⟨hmask, hcol⟩ := colWord_facts (Cert.Spec.tgtWord x1 r) hw
  rw [val_main_v13_apply, valid_apply]
  unfold Cert.Spec.rowLoss
  by_cases h : Cert.Spec.tgtWord x1 r = Cert.Spec.ignoreWord
  · rw [if_pos h]
    have hz : IntOp.cmpi .ne (Cert.Spec.tgtWord x1 r) Cert.Spec.ignoreWord = 0#1 :=
      eq_zero_of_ne_one (fun hh => (IntOp.cmpi_ne.mp hh) h)
    rw [hz, select_zero, val_main_call3_v1_apply, val_main_call3_v0_apply, val_main_cst_apply]
    simp only [Ideal.ofBits_def, Ideal.ofBits_zero_f32]
  · rw [if_neg h, IntOp.cmpi_ne.mpr h, select_one, val_main_v10_apply, val_main_v9_apply]
    have e : idx_main_v9 (ix1 r) = ix2 r (0 : Fin 1) := by
      funext a; refine Fin.ext ?_
      match a with
      | ⟨0, _⟩ => (show r.val / 1 = r.val; omega)
      | ⟨1, _⟩ => rfl
    rw [e, val_main_v8_apply, mask_row, hmask, select_one, gathered_apply]
    simp only [Ideal.hostNegf_def, Ideal.negf_def]
    exact neg_rowLogp_eq_nll x0 x1 x2 h0 h2 r _ hcol

end Cert.ReferenceIdeal.RefRow

end
-- ==== Proof.RefTail.lean ====
/- The reference's closing operations: the count of valid rows (an integer sum of the widened validity mask), the
   sum of the per-row losses, the quotient by the count clamped below by one, and the guard for an empty count.

   The count: the widened validity bits are words 0 or 1, their sum over the 8192 rows stays below 2³², so the word
   the integer reduction leaves has the number of valid rows as its value; read signed it is that number too
   (8192 < 2³¹), so "> 0" is "there is a valid row", and the signed maximum with one, converted exactly, is the real
   number max(count, 1). The float sum from zero over the rank-1 index set is the sum over the row numbers. -/
import proofs.«419131_j19765439496671_3_alg».proof.Proof.RefRead
import proofs.«419131_j19765439496671_3_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefTail

open Cert.ReferenceIdeal Cert.ReferenceIdeal.Gen Cert.ReferenceIdeal.ReadP
open Idealize.ShloMosaic Idealize.ShloMosaic.TcCoe Idealize.ShloMosaic.ValueIdx Idealize.ShloMosaic.StableHlo
open Idealize.ShloMosaic.StableHlo.Predicate

/-- The integer sum of a vector over its one axis, from zero, read unsigned: the sum of the entries' values, as long
    as that sum does not wrap. -/
theorem toNat_reduce_addi_total {n : ℕ} (x : (⟨1, ![n]⟩ : Shape).Idx → BitVec 32) {u : Shape} (init : u.Idx → BitVec 32)
    (h : (⟨1, ![n]⟩ : Shape).ReducesTo [0] ⟨0, ![]⟩) (hu : 0 < u.numel) (h0 : init (Shape.Idx.first hu) = 0#32)
    (hS : ∑ r : Fin n, (x (ix1 r)).toNat < 2 ^ 32) (j : (⟨0, ![]⟩ : Shape).Idx) :
    (Host.reduce IntOp.addi x init h hu j).toNat = ∑ r : Fin n, (x (ix1 r)).toNat := by
  classical
  rw [Host.reduce_eq_fold, h0]
  have hall : (Finset.univ.filter fun i : (⟨1, ![n]⟩ : Shape).Idx => h.drop i = j) = Finset.univ := by
    apply Finset.filter_true_of_mem
    intro i _
    funext a
    exact a.elim0
  rw [hall]
  have hsum : ∑ i : (⟨1, ![n]⟩ : Shape).Idx, (x i).toNat = ∑ r : Fin n, (x (ix1 r)).toNat :=
    (Equiv.sum_comp idxEquiv1.symm fun i => (x i).toNat).symm
  rw [toNat_fold_addi _ _ (by rw [hsum]; exact hS), hsum]

/-- Widened bits sum to the number of set bits. -/
theorem sum_toNat_setWidth_bit {n : ℕ} (b : Fin n → BitVec 1) :
    ∑ r : Fin n, ((b r).setWidth 32).toNat = (Finset.univ.filter fun r => b r = 1#1).card := by
  rw [Finset.card_filter]
  exact Finset.sum_congr rfl fun r _ => toNat_setWidth_bit (b r)

/-- The signed maximum of a small non-negative word and one, read signed. -/
theorem toInt_maxsi_one {w : BitVec 32} (hw : w.toNat < 2 ^ 31) :
    (IntOp.maxsi w 1#32).toInt = ((max w.toNat 1 : ℕ) : ℤ) := by
  have hti : w.toInt = w.toNat := toInt_eq_toNat_of_lt hw
  have h1 : (1#32 : BitVec 32).toInt = 1 := by decide
  unfold IntOp.maxsi
  split <;> rename_i hc <;> simp only [BitVec.slt, hti, h1, decide_eq_true_eq] at hc
  · rw [hti]; omega
  · rw [h1]; omega

/-- The validity bit of token row `r` is set exactly when the row's target is not the ignore value. -/
theorem valid_bit_iff (x1 : (⟨S4x2048, .i32⟩ : BufTy).Contents (Elt Ideal)) (r : Fin 8192) :
    val_main_v3 (F := Ideal) x1 (ix1 r) = 1#1 ↔ Cert.Spec.tgtWord x1 r ≠ Cert.Spec.ignoreWord := by
  rw [val_main_v3_apply, val_main_v1_apply, val_main_v2_apply, val_main_c_apply]
  have hi : idx_main_v1 (ix1 r)
      = ix2 (⟨r.val / 2048, by have := r.isLt; omega⟩ : Fin 4) (⟨r.val % 2048, Nat.mod_lt _ (by norm_num)⟩ : Fin 2048) :=
    funext fun a => Fin.ext (by match a with | ⟨0, _⟩ => rfl | ⟨1, _⟩ => rfl)
  rw [hi]
  unfold IntOp.cmpi Cert.Spec.tgtWord
  rw [ofBool_eq_one_iff]
  simp only [bne_iff_ne]

/-- The number of valid rows is at most the number of rows. -/
theorem count_le (x1 : (⟨S4x2048, .i32⟩ : BufTy).Contents (Elt Ideal)) : Cert.Spec.count x1 ≤ 8192 := by
  unfold Cert.Spec.count
  exact le_trans (Finset.card_le_univ _) (by simp)

/-- The integer sum of the widened validity bits is the word of the number of valid rows. -/
theorem toNat_count_word (x1 : (⟨S4x2048, .i32⟩ : BufTy).Contents (Elt Ideal)) (i : S_.Idx) :
    (val_main_v12 (F := Ideal) x1 i).toNat = Cert.Spec.count x1 := by
  have hsum : ∑ r : Fin 8192, (val_main_v11 (F := Ideal) x1 (ix1 r)).toNat = Cert.Spec.count x1 := by
    simp only [val_main_v11_apply]
    rw [sum_toNat_setWidth_bit]
    unfold Cert.Spec.count
    congr 1
    ext r
    simp only [Finset.mem_filter, Finset.mem_univ, true_and]
    exact valid_bit_iff x1 r
  unfold val_main_v12
  rw [toNat_reduce_addi_total _ _ reducesTo_S8192_S_d0 h_S_ rfl (by rw [hsum]; have := count_le x1; omega) i, hsum]

/-- The reference's result from its stage 13: zero without a valid row, else the sum of stage 13 over the rows
    divided by the number of valid rows. -/
theorem tail_value (x0 : (⟨S4x2048x2048, .f32⟩ : BufTy).Contents (Elt Ideal)) (x1 : (⟨S4x2048, .i32⟩ : BufTy).Contents (Elt Ideal)) (x2 : (⟨S32000x2048, .f32⟩ : BufTy).Contents (Elt Ideal)) :
    val_main_v19 (F := Ideal) x0 x1 x2
      = fun _ => if 0 < Cert.Spec.count x1
          then Ideal.div (∑ r : Fin 8192, (val_main_v13 (F := Ideal) x0 x1 x2 (ix1 r) : EReal)) (((max (Cert.Spec.count x1) 1 : ℕ) : ℝ) : EReal)
          else 0 := by
  funext i
  have hc := toNat_count_word x1 i
  have hle := count_le x1
  have h0 : (0#32 : BitVec 32).toNat < 2 ^ 31 := by decide
  have hlt : (val_main_v12 (F := Ideal) x1 i).toNat < 2 ^ 31 := by rw [hc]; omega
  rw [val_main_v19_apply, val_main_v15_apply, val_main_c_3_apply, val_main_call4_v0_apply, val_main_cst_5_apply,
    Ideal.ofBits_def, Ideal.ofBits_zero_f32]
  by_cases hpos : 0 < Cert.Spec.count x1
  · have hbit : IntOp.cmpi .sgt (val_main_v12 (F := Ideal) x1 i) 0#32 = 1#1 :=
      (sgt_iff_toNat hlt h0).2 (by rw [hc]; exact hpos)
    rw [hbit, select_one, if_pos hpos, val_main_v18_apply, Ideal.hostDivf_def, val_main_v14_apply, val_main_cst_2_apply,
      Ideal.ofBits_def, Ideal.ofBits_zero_f32, zero_add, val_main_v17_apply, val_main_v16_apply, val_main_c_4_apply]
    have hden : FloatOps.sitofp (F := Ideal) .f32 (IntOp.maxsi (val_main_v12 (F := Ideal) x1 i) 1#32)
        = (((max (Cert.Spec.count x1) 1 : ℕ) : ℝ) : EReal) := by
      show (((IntOp.maxsi (val_main_v12 (F := Ideal) x1 i) 1#32).toInt : ℝ) : EReal) = _
      rw [toInt_maxsi_one hlt, hc, Int.cast_natCast]
    have hnum : ∑ j : S8192.Idx, val_main_v13 (F := Ideal) x0 x1 x2 j
        = ∑ r : Fin 8192, (val_main_v13 (F := Ideal) x0 x1 x2 (ix1 r) : EReal) :=
      (Equiv.sum_comp idxEquiv1.symm fun j => (val_main_v13 (F := Ideal) x0 x1 x2 j : EReal)).symm
    rw [hden, hnum]
  · have hbit : IntOp.cmpi .sgt (val_main_v12 (F := Ideal) x1 i) 0#32 = 0#1 :=
      eq_zero_of_ne_one fun h => hpos (by have := (sgt_iff_toNat hlt h0).1 h; rw [hc] at this; exact this)
    rw [hbit, select_zero, if_neg hpos]

end Cert.ReferenceIdeal.RefTail

end
-- ==== Proof.RefOps.lean ====
import proofs.«419131_j19765439496671_3_alg».proof.Proof.RefRun

noncomputable section

namespace Cert.ReferenceIdeal.RefAfter

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The reference's operations, in order, each by the plain builder. -/
abbrev opsP : List (HloOp τ sig (Elt F)) :=
  [ reshape main_arg0 main_v0 rfl shapeCasts_S4x2048x2048_S8192x2048,
    reshape main_arg1 main_v1 rfl shapeCasts_S4x2048_S8192,
    nullary main_c (constantI S_ 32 4294967196#32),
    unary main_c main_v2 (broadcastInDim S8192 ![] bcast_S_S8192 : (⟨S_, .i32⟩ : BufTy).Contents (Elt F) → (⟨S8192, .i32⟩ : BufTy).Contents (Elt F)),
    binary main_v1 main_v2 main_v3 (cmpi .ne : (⟨S8192, .i32⟩ : BufTy).Contents (Elt F) → (⟨S8192, .i32⟩ : BufTy).Contents (Elt F) → (⟨S8192, .i1⟩ : BufTy).Contents (Elt F)),
    nullary main_c_0 (constantI S_ 32 0#32),
    unary main_c_0 main_call0_v0 ((id) : (⟨S_, .i32⟩ : BufTy).Contents (Elt F) → (⟨S_, .i32⟩ : BufTy).Contents (Elt F)),
    unary main_call0_v0 main_call0_v1 (((broadcastInDim S8192 ![] bcast_S_S8192)) : (⟨S_, .i32⟩ : BufTy).Contents (Elt F) → (⟨S8192, .i32⟩ : BufTy).Contents (Elt F)),
    ternary main_v3 main_v1 main_call0_v1 main_v4 ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    binary main_v0 main_arg2 main_v5 ((fun l r => Host.dotGeneral dot_S8192x2048_S32000x2048_S8192x32000_1_1_0_0_n_n none l r) : (⟨S8192x2048, .f32⟩ : BufTy).Contents (Elt F) → (⟨S32000x2048, .f32⟩ : BufTy).Contents (Elt F) → (⟨S8192x32000, .f32⟩ : BufTy).Contents (Elt F)),
    nullary main_call1_cst (constant S_ .f32 0xFF800000#32),
    TRef.binary (TRef.of (T := ⟨S8192x32000, .f32⟩) main_v5) (TRef.of (T := ⟨S_, .f32⟩) main_call1_cst) (TRef.of (T := ⟨S8192, .f32⟩) main_call1_v0) (fun x v => Host.reduce FloatOps.maximumf x v reducesTo_S8192x32000_S8192_d1 h_S_),
    nullary main_call1_cst_0 (constant S_ .f32 0xFF800000#32),
    unary main_call1_cst_0 main_call1_v1 (((broadcastInDim S8192 ![] bcast_S_S8192)) : (⟨S_, .f32⟩ : BufTy).Contents (Elt F) → (⟨S8192, .f32⟩ : BufTy).Contents (Elt F)),
    binary main_call1_v1 main_call1_v0 main_call1_v2 ((maximumf) : (⟨S8192, .f32⟩ : BufTy).Contents (Elt F) → (⟨S8192, .f32⟩ : BufTy).Contents (Elt F) → (⟨S8192, .f32⟩ : BufTy).Contents (Elt F)),
    unary main_call1_v2 main_call1_v3 (((broadcastInDim S8192x1 ![0] bcast_S8192_S8192x1_0)) : (⟨S8192, .f32⟩ : BufTy).Contents (Elt F) → (⟨S8192x1, .f32⟩ : BufTy).Contents (Elt F)),
    unary main_call1_v3 main_call1_v4 (((broadcastInDim S8192x32000 ![0, 1] bcast_S8192x1_S8192x32000_0_1)) : (⟨S8192x1, .f32⟩ : BufTy).Contents (Elt F) → (⟨S8192x32000, .f32⟩ : BufTy).Contents (Elt F)),
    binary main_v5 main_call1_v4 main_call1_v5 ((subf) : (⟨S8192x32000, .f32⟩ : BufTy).Contents (Elt F) → (⟨S8192x32000, .f32⟩ : BufTy).Contents (Elt F) → (⟨S8192x32000, .f32⟩ : BufTy).Contents (Elt F)),
    unary main_call1_v5 main_call1_v6 ((Host.exp) : (⟨S8192x32000, .f32⟩ : BufTy).Contents (Elt F) → (⟨S8192x32000, .f32⟩ : BufTy).Contents (Elt F)),
    nullary main_call1_cst_1 (constant S_ .f32 0x00000000#32),
    binary main_call1_v6 main_call1_cst_1 main_call1_v7 (((fun x v => Host.reduceAdd x v reducesTo_S8192x32000_S8192_d1 h_S_)) : (⟨S8192x32000, .f32⟩ : BufTy).Contents (Elt F) → (⟨S_, .f32⟩ : BufTy).Contents (Elt F) → (⟨S8192, .f32⟩ : BufTy).Contents (Elt F)),
    unary main_call1_v7 main_call1_v8 (((broadcastInDim S8192x1 ![0] bcast_S8192_S8192x1_0)) : (⟨S8192, .f32⟩ : BufTy).Contents (Elt F) → (⟨S8192x1, .f32⟩ : BufTy).Contents (Elt F)),
    unary main_call1_v8 main_call1_v9 ((Host.log) : (⟨S8192x1, .f32⟩ : BufTy).Contents (Elt F) → (⟨S8192x1, .f32⟩ : BufTy).Contents (Elt F)),
    unary main_call1_v9 main_call1_v10 (((broadcastInDim S8192x32000 ![0, 1] bcast_S8192x1_S8192x32000_0_1)) : (⟨S8192x1, .f32⟩ : BufTy).Contents (Elt F) → (⟨S8192x32000, .f32⟩ : BufTy).Contents (Elt F)),
    binary main_call1_v5 main_call1_v10 main_v6 ((subf) : (⟨S8192x32000, .f32⟩ : BufTy).Contents (Elt F) → (⟨S8192x32000, .f32⟩ : BufTy).Contents (Elt F) → (⟨S8192x32000, .f32⟩ : BufTy).Contents (Elt F)),
    unary main_v4 main_v7 (broadcastInDim S8192x1 ![0] bcast_S8192_S8192x1_0 : (⟨S8192, .i32⟩ : BufTy).Contents (Elt F) → (⟨S8192x1, .i32⟩ : BufTy).Contents (Elt F)),
    nullary main_call2_c (constantI S_ 32 0#32),
    unary main_call2_c main_call2_v0 (((broadcastInDim S8192x1 ![] bcast_S_S8192x1)) : (⟨S_, .i32⟩ : BufTy).Contents (Elt F) → (⟨S8192x1, .i32⟩ : BufTy).Contents (Elt F)),
    binary main_v7 main_call2_v0 main_call2_v1 (((cmpi .slt)) : (⟨S8192x1, .i32⟩ : BufTy).Contents (Elt F) → (⟨S8192x1, .i32⟩ : BufTy).Contents (Elt F) → (⟨S8192x1, .i1⟩ : BufTy).Contents (Elt F)),
    nullary main_call2_c_0 (constantI S_ 32 32000#32),
    unary main_call2_c_0 main_call2_v2 (((broadcastInDim S8192x1 ![] bcast_S_S8192x1)) : (⟨S_, .i32⟩ : BufTy).Contents (Elt F) → (⟨S8192x1, .i32⟩ : BufTy).Contents (Elt F)),
    binary main_v7 main_call2_v2 main_call2_v3 ((addi) : (⟨S8192x1, .i32⟩ : BufTy).Contents (Elt F) → (⟨S8192x1, .i32⟩ : BufTy).Contents (Elt F) → (⟨S8192x1, .i32⟩ : BufTy).Contents (Elt F)),
    ternary main_call2_v1 main_call2_v3 main_v7 main_call2_v4 ((select) : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    reshape main_call2_v4 main_call2_v5 rfl shapeCasts_S8192x1_S8192x1x1,
    nullary main_call2_c_1 (constantI S1 32 31999#32),
    nullary main_call2_c_2 (constantI S_ 32 0#32),
    unary main_call2_c_2 main_call2_v6 (((broadcastInDim S8192x1x1 ![] bcast_S_S8192x1x1)) : (⟨S_, .i32⟩ : BufTy).Contents (Elt F) → (⟨S8192x1x1, .i32⟩ : BufTy).Contents (Elt F)),
    binary main_call2_v5 main_call2_v6 main_call2_v7 (((cmpi .sge)) : (⟨S8192x1x1, .i32⟩ : BufTy).Contents (Elt F) → (⟨S8192x1x1, .i32⟩ : BufTy).Contents (Elt F) → (⟨S8192x1x1, .i1⟩ : BufTy).Contents (Elt F)),
    unary main_call2_c_1 main_call2_v8 (((broadcastInDim S1x1x1 ![2] bcast_S1_S1x1x1_2)) : (⟨S1, .i32⟩ : BufTy).Contents (Elt F) → (⟨S1x1x1, .i32⟩ : BufTy).Contents (Elt F)),
    unary main_call2_v8 main_call2_v9 (((broadcastInDim S8192x1x1 ![0, 1, 2] bcast_S1x1x1_S8192x1x1_0_1_2)) : (⟨S1x1x1, .i32⟩ : BufTy).Contents (Elt F) → (⟨S8192x1x1, .i32⟩ : BufTy).Contents (Elt F)),
    binary main_call2_v5 main_call2_v9 main_call2_v10 (((cmpi .sle)) : (⟨S8192x1x1, .i32⟩ : BufTy).Contents (Elt F) → (⟨S8192x1x1, .i32⟩ : BufTy).Contents (Elt F) → (⟨S8192x1x1, .i1⟩ : BufTy).Contents (Elt F)),
    binary main_call2_v7 main_call2_v10 main_call2_v11 ((andi) : (⟨S8192x1x1, .i1⟩ : BufTy).Contents (Elt F) → (⟨S8192x1x1, .i1⟩ : BufTy).Contents (Elt F) → (⟨S8192x1x1, .i1⟩ : BufTy).Contents (Elt F)),
    nullary main_call2_c_3 (constantI S_ 1 1#1),
    binary main_call2_v11 main_call2_c_3 main_call2_v12 (((fun x v => Host.reduce IntOp.andi x v reducesTo_S8192x1x1_S8192x1_d2 h_S_)) : (⟨S8192x1x1, .i1⟩ : BufTy).Contents (Elt F) → (⟨S_, .i1⟩ : BufTy).Contents (Elt F) → (⟨S8192x1, .i1⟩ : BufTy).Contents (Elt F)),
    binary main_v6 main_call2_v5 main_call2_v13 (((fun x i => Host.gather gather_S8192x32000_S8192x1x1_S8192x1_n_1_0_0_1_2_11 x i)) : (⟨S8192x32000, .f32⟩ : BufTy).Contents (Elt F) → (⟨S8192x1x1, .i32⟩ : BufTy).Contents (Elt F) → (⟨S8192x1, .f32⟩ : BufTy).Contents (Elt F)),
    nullary main_call2_cst (constant S_ .f32 0x7FC00000#32),
    unary main_call2_cst main_call2_v14 (((broadcastInDim S8192x1 ![] bcast_S_S8192x1)) : (⟨S_, .f32⟩ : BufTy).Contents (Elt F) → (⟨S8192x1, .f32⟩ : BufTy).Contents (Elt F)),
    ternary main_call2_v12 main_call2_v13 main_call2_v14 main_v8 ((select) : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    reshape main_v8 main_v9 rfl shapeCasts_S8192x1_S8192,
    unary main_v9 main_v10 (Host.negf : (⟨S8192, .f32⟩ : BufTy).Contents (Elt F) → (⟨S8192, .f32⟩ : BufTy).Contents (Elt F)),
    unary main_v3 main_v11 ((extui 32 · natLt_1_32) : (⟨S8192, .i1⟩ : BufTy).Contents (Elt F) → (⟨S8192, .i32⟩ : BufTy).Contents (Elt F)),
    nullary main_c_1 (constantI S_ 32 0#32),
    binary main_v11 main_c_1 main_v12 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_cst (constant S_ .f32 0x00000000#32),
    unary main_cst main_call3_v0 ((id) : (⟨S_, .f32⟩ : BufTy).Contents (Elt F) → (⟨S_, .f32⟩ : BufTy).Contents (Elt F)),
    unary main_call3_v0 main_call3_v1 (((broadcastInDim S8192 ![] bcast_S_S8192)) : (⟨S_, .f32⟩ : BufTy).Contents (Elt F) → (⟨S8192, .f32⟩ : BufTy).Contents (Elt F)),
    ternary main_v3 main_v10 main_call3_v1 main_v13 ((select) : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_cst_2 (constant S_ .f32 0x00000000#32),
    binary main_v13 main_cst_2 main_v14 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_3 (constantI S_ 32 0#32),
    binary main_v12 main_c_3 main_v15 (cmpi .sgt : (⟨S_, .i32⟩ : BufTy).Contents (Elt F) → (⟨S_, .i32⟩ : BufTy).Contents (Elt F) → (⟨S_, .i1⟩ : BufTy).Contents (Elt F)),
    nullary main_c_4 (constantI S_ 32 1#32),
    binary main_v12 main_c_4 main_v16 (maxsi : (⟨S_, .i32⟩ : BufTy).Contents (Elt F) → (⟨S_, .i32⟩ : BufTy).Contents (Elt F) → (⟨S_, .i32⟩ : BufTy).Contents (Elt F)),
    unary main_v16 main_v17 (sitofp .f32 : (⟨S_, .i32⟩ : BufTy).Contents (Elt F) → (⟨S_, .f32⟩ : BufTy).Contents (Elt F)),
    binary main_v14 main_v17 main_v18 (Host.divf : (⟨S_, .f32⟩ : BufTy).Contents (Elt F) → (⟨S_, .f32⟩ : BufTy).Contents (Elt F) → (⟨S_, .f32⟩ : BufTy).Contents (Elt F)),
    nullary main_cst_5 (constant S_ .f32 0x00000000#32),
    unary main_cst_5 main_call4_v0 ((id) : (⟨S_, .f32⟩ : BufTy).Contents (Elt F) → (⟨S_, .f32⟩ : BufTy).Contents (Elt F)),
    ternary main_v15 main_v18 main_call4_v0 main_v19 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

end Cert.ReferenceIdeal.RefAfter

end
-- ==== Proof.RefAfter.lean ====
/- The reference's result buffer after its operation list is the composed term of its arguments.

   The operation list spells the operations of the functions jax outlined over typed references, whose contents are
   transported along type equalities that hold by computation.  Entry by entry the list is the same list written with the
   plain builders (`ops_eq`: the transports are the identity), and over that list the result buffer is computed
   operation by operation. -/
import proofs.«419131_j19765439496671_3_alg».proof.Proof.RefOps
import proofs.«419131_j19765439496671_3_alg».proof.Proof.RefRead
import Idealize.ShloMosaic.Lib.StableHlo.Run

noncomputable section

namespace Cert.ReferenceIdeal.RefAfter

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

set_option maxRecDepth 65536 in
/-- The two spellings of the operation list are one list, entry by entry. -/
theorem ops_eq : (ops : List (HloOp τ sig (Elt F))) = opsP := by
  unfold ops opsP
  iterate 68 (refine congr (congrArg List.cons (by rfl)) ?_)
  rfl

set_option maxRecDepth 8192 in
set_option maxHeartbeats 4000000 in
/-- The result buffer after the operations is the composed term the run module names. -/
theorem after_eq_res (m : (ℓ : Loc nD τ sig) → Buf (Elt F) ℓ) (c : Dev nD) :
    StableHlo.after (ops (F := F)) (fun b => m (c, b)) (Proc.devRef .tc main_v19) = res_main_v19 m c := by
  rw [ops_eq]
  after_results_simp
  simp only [TRef.ofBuf, TRef.toBuf, cast_eq]
  rfl

end Cert.ReferenceIdeal.RefAfter

end
-- ==== Proof.RefValue.lean ====
/- The reference's result as a function of the argument arrays: the closing operations over the per-row losses. -/
import proofs.«419131_j19765439496671_3_alg».proof.Proof.RefRow
import proofs.«419131_j19765439496671_3_alg».proof.Proof.RefTail
import proofs.«419131_j19765439496671_3_alg».proof.Proof.RefAfter

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- The reference run's result term is the specification's mean loss of its arguments. -/
theorem res_eq (m : (ℓ : Loc nD τ sig) → Buf (Elt Ideal) ℓ) (c : Dev nD)
    (hH : Cert.Spec.Finite (S := Cert.Spec.SH) (m ((c.tc : Thread nD τ).loc main_arg0)))
    (hT : Cert.Spec.InRange (m ((c.tc : Thread nD τ).loc main_arg1)))
    (hW : Cert.Spec.Finite (S := Cert.Spec.SW) (m ((c.tc : Thread nD τ).loc main_arg2))) :
    Cert.ReferenceIdeal.ValueP.res_main_v19 (F := Ideal) m c
      = fun _ => Cert.Spec.loss (m ((c.tc : Thread nD τ).loc main_arg0)) (m ((c.tc : Thread nD τ).loc main_arg1)) (m ((c.tc : Thread nD τ).loc main_arg2)) := by
  rw [val_main_v19_eq, Cert.ReferenceIdeal.RefTail.tail_value]
  funext _
  unfold Cert.Spec.loss
  congr 2
  apply Finset.sum_congr rfl
  intro r _
  exact Cert.ReferenceIdeal.RefRow.row_value _ _ _ hH hT hW r

/-- So the result buffer after the reference's operations holds the specification's mean loss. -/
theorem after_eq (m : (ℓ : Loc nD τ sig) → Buf (Elt Ideal) ℓ) (c : Dev nD)
    (hH : Cert.Spec.Finite (S := Cert.Spec.SH) (m ((c.tc : Thread nD τ).loc main_arg0)))
    (hT : Cert.Spec.InRange (m ((c.tc : Thread nD τ).loc main_arg1)))
    (hW : Cert.Spec.Finite (S := Cert.Spec.SW) (m ((c.tc : Thread nD τ).loc main_arg2))) :
    StableHlo.after (Cert.ReferenceIdeal.ValueP.ops (F := Ideal)) (fun b => m (c, b)) (Proc.devRef .tc main_v19)
      = fun _ => Cert.Spec.loss (m ((c.tc : Thread nD τ).loc main_arg0)) (m ((c.tc : Thread nD τ).loc main_arg1)) (m ((c.tc : Thread nD τ).loc main_arg2)) :=
  (Cert.ReferenceIdeal.RefAfter.after_eq_res m c).trans (res_eq m c hH hT hW)

end Cert.ReferenceIdeal.RefValue

end
-- ==== Proof.lean ====
/- The certificate of the fused linear cross-entropy kernel against its jnp reference.

   The kernel streams the vocabulary in tiles of 256 columns and keeps, per token row, a running maximum, a running sum
   of exponentials rescaled to that maximum, and the logit at the target column; the reference forms all 32000 logits,
   takes the log-softmax in one pass and gathers the target column.  Over the extended reals, for finite inputs and
   targets that are −100 or a vocabulary column, both end at the mean over the valid rows of
   `max + log (∑ exp (logit − max)) − logit[target]` (`Cert.Spec.loss`): the kernel by an induction over the grid points
   (`Inv.inv`, over `RowMath`'s tile step), the reference by reading its stages (`RefRow`, `RefTail`).  The three
   frames are the generated ones (the reference's is its run with the result dropped); the ideal pass rewrote nothing,
   so `preserves` is trivial. -/
import proofs.«419131_j19765439496671_3_alg».proof.Defs
import proofs.«419131_j19765439496671_3_alg».proof.Proof.Gen.Kernel
import proofs.«419131_j19765439496671_3_alg».proof.Proof.Gen.Kernel.Skeleton
import proofs.«419131_j19765439496671_3_alg».proof.Proof.Gen.Kernel.Launch
import proofs.«419131_j19765439496671_3_alg».proof.Proof.Gen.Kernel.Points
import proofs.«419131_j19765439496671_3_alg».proof.Proof.Gen.Kernel.Frame
import proofs.«419131_j19765439496671_3_alg».proof.Proof.Gen.KernelIdeal
import proofs.«419131_j19765439496671_3_alg».proof.Proof.Gen.KernelIdeal.Skeleton
import proofs.«419131_j19765439496671_3_alg».proof.Proof.Gen.KernelIdeal.Launch
import proofs.«419131_j19765439496671_3_alg».proof.Proof.Gen.KernelIdeal.Points
import proofs.«419131_j19765439496671_3_alg».proof.Proof.Gen.KernelIdeal.Frame
import proofs.«419131_j19765439496671_3_alg».proof.Proof.Gen.ReferenceIdeal
import proofs.«419131_j19765439496671_3_alg».proof.Proof.Gen.Pre_finite_inputs
import proofs.«419131_j19765439496671_3_alg».proof.Proof.RefRun
import proofs.«419131_j19765439496671_3_alg».proof.Proof.RefRead
import proofs.«419131_j19765439496671_3_alg».proof.Proof.PreDecode
import proofs.«419131_j19765439496671_3_alg».proof.Proof.KernelValue
import proofs.«419131_j19765439496671_3_alg».proof.Proof.RefValue
import Idealize.ShloMosaic.Adequacy
import Idealize.ShloMosaic.Init

noncomputable section

namespace Cert.Proof

open Idealize.ShloMosaic Idealize.SL.Sem Cert.Kernel

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at the specification's mean loss of the (agreeing) arguments. -/
theorem algebraic : Cert.algebraic_KernelIdeal_ReferenceIdeal := by
  intro m ρ m' ρ' hpre hagree
  have hdec : ∀ c : Dev Cert.KernelIdeal.nD, Cert.Spec.Finite (Cert.KernelIdeal.KArr.argH m c) ∧ Cert.Spec.InRange (Cert.KernelIdeal.KArr.argT m c)
      ∧ Cert.Spec.Finite (Cert.KernelIdeal.KArr.argW m c) := fun c => Cert.PreDecode.decode _ _ _ (hpre c)
  refine ⟨fun c _ => Cert.Spec.loss (Cert.KernelIdeal.KArr.argH m c) (Cert.KernelIdeal.KArr.argT m c) (Cert.KernelIdeal.KArr.argW m c),
    Cert.KernelIdeal.KVal.run m ρ hdec, ?_⟩
  refine (θ_run Cert.ReferenceIdeal.defs _ _).mono (fun _ h c => ⟨(h c).1.trans ?_, (h c).2⟩)
    (Cert.ReferenceIdeal.ValueP.run (F := Ideal) m' ρ')
  obtain ⟨hH, hT, hW⟩ := hdec c
  obtain ⟨a0, a1, a2⟩ := hagree c
  rw [Cert.ReferenceIdeal.RefValue.after_eq m' c (by rw [a0]; exact hH) (by rw [a1]; exact hT) (by rw [a2]; exact hW), a0, a1, a2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
